-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S16384x16 : Shape := ⟨2, ![16384, 16]⟩
abbrev S16384x2 : Shape := ⟨2, ![16384, 2]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S16384x16 : S_.BroadcastsInDim S16384x16 (![] : Fin 0 → Fin S16384x16.rank)
  reducesTo_S16384x16_S_d0_1 : S16384x16.ReducesTo [0, 1] S_
  bcast_S_S16384x2 : S_.BroadcastsInDim S16384x2 (![] : Fin 0 → Fin S16384x2.rank)
  reducesTo_S16384x2_S_d0_1 : S16384x2.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S4096x4096 .f32) (main_arg1 : FVec F S16384x16 .f32) (main_arg2 : IVec S16384x2 32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S16384x16 .f32 := Host.absf main_arg1
  let main_cst_0 : FVec F S_ .f32 := constant S_ .f32 0x7F800000#32
  let main_v5 : FVec F S16384x16 .f32 := broadcastInDim S16384x16 ![] bcast_S_S16384x16 main_cst_0
  let main_v6 : IVec S16384x16 1 := cmpf .olt main_v4 main_v5
  let main_c_1 : IVec S_ 1 := constantI S_ 1 1#1
  let main_v7 : IVec S_ 1 := (fun x v => Host.reduce IntOp.andi x v reducesTo_S16384x16_S_d0_1 h_S_) main_v6 main_c_1
  let main_v8 : IVec S_ 1 := andi main_v3 main_v7
  let main_c_2 : IVec S_ 32 := constantI S_ 32 0#32
  let main_v9 : IVec S16384x2 32 := broadcastInDim S16384x2 ![] bcast_S_S16384x2 main_c_2
  let main_v10 : IVec S16384x2 1 := cmpi .sge main_arg2 main_v9
  let main_c_3 : IVec S_ 1 := constantI S_ 1 1#1
  let main_v11 : IVec S_ 1 := (fun x v => Host.reduce IntOp.andi x v reducesTo_S16384x2_S_d0_1 h_S_) main_v10 main_c_3
  let main_v12 : IVec S_ 1 := andi main_v8 main_v11
  let main_c_4 : IVec S_ 32 := constantI S_ 32 4096#32
  let main_v13 : IVec S16384x2 32 := broadcastInDim S16384x2 ![] bcast_S_S16384x2 main_c_4
  let main_v14 : IVec S16384x2 1 := cmpi .slt main_arg2 main_v13
  let main_c_5 : IVec S_ 1 := constantI S_ 1 1#1
  let main_v15 : IVec S_ 1 := (fun x v => Host.reduce IntOp.andi x v reducesTo_S16384x2_S_d0_1 h_S_) main_v14 main_c_5
  fn_part1 (F := F) main_v12 main_v15
-- ==== Kernel.lean ====
abbrev S4096x4096 : Shape := ⟨2, ![4096, 4096]⟩
abbrev S16384x16 : Shape := ⟨2, ![16384, 16]⟩
abbrev S16384x2 : Shape := ⟨2, ![16384, 2]⟩
abbrev S16x4 : Shape := ⟨2, ![16, 4]⟩
abbrev S_ : Shape := ⟨0, ![]⟩
abbrev S16384 : Shape := ⟨1, ![16384]⟩
abbrev S16384x1 : Shape := ⟨2, ![16384, 1]⟩
abbrev S16384x4 : Shape := ⟨2, ![16384, 4]⟩
abbrev S4x16384 : Shape := ⟨2, ![4, 16384]⟩
abbrev S1x16384 : Shape := ⟨2, ![1, 16384]⟩
abbrev S4096x16384 : Shape := ⟨2, ![4096, 16384]⟩
abbrev S512x512 : Shape := ⟨2, ![512, 512]⟩
abbrev S1x2048 : Shape := ⟨2, ![1, 2048]⟩
abbrev S4x2048 : Shape := ⟨2, ![4, 2048]⟩
abbrev S512x2048 : Shape := ⟨2, ![512, 2048]⟩

abbrev nBuf : Space → Nat
  | .hbm => 27
  | .vmem => 12
  | .smem => 0
  | _ => 0

abbrev bufTy : (tb : Table) → Fin (tcTables nBuf tb) → BufTy
  | .hbm, ⟨0, _⟩ => ⟨S4096x4096, .f32⟩
  | .hbm, ⟨1, _⟩ => ⟨S16384x16, .f32⟩
  | .hbm, ⟨2, _⟩ => ⟨S16384x2, .i32⟩
  | .hbm, ⟨3, _⟩ => ⟨S16x4, .f32⟩
  | .hbm, ⟨4, _⟩ => ⟨S_, .f32⟩
  | .hbm, ⟨5, _⟩ => ⟨S16384, .f32⟩
  | .hbm, ⟨6, _⟩ => ⟨S_, .f32⟩
  | .hbm, ⟨7, _⟩ => ⟨S16384, .f32⟩
  | .hbm, ⟨8, _⟩ => ⟨S16384, .f32⟩
  | .hbm, ⟨9, _⟩ => ⟨S16384x1, .f32⟩
  | .hbm, ⟨10, _⟩ => ⟨S16384x16, .f32⟩
  | .hbm, ⟨11, _⟩ => ⟨S16384x16, .f32⟩
  | .hbm, ⟨12, _⟩ => ⟨S16384x16, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S16384x16, .f32⟩
  | .hbm, ⟨17, _⟩ => ⟨S16384x16, .f32⟩
  | .hbm, ⟨18, _⟩ => ⟨S16384x4, .f32⟩
  | .hbm, ⟨19, _⟩ => ⟨S4x16384, .f32⟩
  | .hbm, ⟨20, _⟩ => ⟨S16384x1, .i32⟩
  | .hbm, ⟨21, _⟩ => ⟨S16384, .i32⟩
  | .hbm, ⟨22, _⟩ => ⟨S1x16384, .i32⟩
  | .hbm, ⟨23, _⟩ => ⟨S16384x1, .i32⟩
  | .hbm, ⟨24, _⟩ => ⟨S16384, .i32⟩
  | .hbm, ⟨25, _⟩ => ⟨S1x16384, .i32⟩
  | .hbm, ⟨26, _⟩ => ⟨S4096x16384, .f32⟩
  | .local _ .vmem, ⟨0, _⟩ => ⟨S512x512, .f32⟩
  | .local _ .vmem, ⟨1, _⟩ => ⟨S512x512, .f32⟩
  | .local _ .vmem, ⟨2, _⟩ => ⟨S1x2048, .i32⟩
  | .local _ .vmem, ⟨3, _⟩ => ⟨S1x2048, .i32⟩
  | .local _ .vmem, ⟨4, _⟩ => ⟨S1x2048, .i32⟩
  | .local _ .vmem, ⟨5, _⟩ => ⟨S1x2048, .i32⟩
  | .local _ .vmem, ⟨6, _⟩ => ⟨S4x2048, .f32⟩
  | .local _ .vmem, ⟨7, _⟩ => ⟨S4x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_cst_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 8], ![false, false, false]⟩

def k0_cond2 (i : grid0.Coords) : BitVec 1 :=
  let arg2 : BitVec 32 := BitVec.ofNat 32 (i 2).val
  let c7_i32 : BitVec 32 := 7#32
  let v37 : BitVec 1 := Scalar.cmpi .eq arg2 c7_i32
  let v38 : BitVec 32 := Scalar.extui v37
  let c0_i32_15 : BitVec 32 := 0#32
  let v39 : BitVec 1 := Scalar.cmpi .ne v38 c0_i32_15
  v39

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S4x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  reducesTo_S16384x16_S16384_d1 : S16384x16.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x16_0_1 : S16384x1.BroadcastsInDim S16384x16 (![0, 1] : Fin 2 → Fin S16384x16.rank)
  transposes_S16384x4_S4x16384_1_0 : S16384x4.Transposes [1, 0] S4x16384
  slices_S16384x2_S16384x1_0_0 : S16384x2.Slices ![0, 0] S16384x1
  shapeCasts_S16384x1_S16384 : S16384x1.ShapeCasts S16384
  shapeCasts_S16384_S1x16384 : S16384.ShapeCasts S1x16384
  slices_S16384x2_S16384x1_0_1 : S16384x2.Slices ![0, 1] S16384x1
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  iota_S512x2048_d0_w32 : S512x2048.Iotas .tc 32 [0]
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  natLt_1_32 : 1 < 32
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S4x2048_S4x2048_0_0 : ∀ a, (![0, 0] : Fin 2 → Nat) a + S4x2048.size a ≤ S4x2048.size a
  h_S4x2048 : 0 < S4x2048.numel
  shapeCasts_S4x2048_S4x2048 : S4x2048.ShapeCasts S4x2048
  slices_S4x2048_o0_0_S1x2048 : S4x2048.Slices ![0, 0] S1x2048
  slices_S4x2048_o1_0_S1x2048 : S4x2048.Slices ![1, 0] S1x2048
  slices_S4x2048_o2_0_S1x2048 : S4x2048.Slices ![2, 0] S1x2048
  slices_S4x2048_o3_0_S1x2048 : S4x2048.Slices ![3, 0] S1x2048
  dot_S16384x16_S16x4_S16384x4_1_0_0_1_n_n_wf : DotDims.WF S16384x16 S16x4 S16384x4 [1] [0] [0] [1] [] []
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x4096.size a
  hwx0_0 : ∀ i : grid0.Coords, EltTy.bits .f32 = 32 ∨ (Rect.block (s := S4096x4096) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x16384.size a
  hwx0_1 : ∀ i : grid0.Coords, EltTy.bits .i32 = 32 ∨ (Rect.block (s := S1x16384) S1x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x16384.size a
  hwx0_2 : ∀ i : grid0.Coords, EltTy.bits .i32 = 32 ∨ (Rect.block (s := S1x16384) S1x2048.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x2048.size a ≤ S4x16384.size a
  hwx0_3 : ∀ i : grid0.Coords, EltTy.bits .f32 = 32 ∨ (Rect.block (s := S4x16384) S4x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S4096x16384.size a
  hwx0_4 : ∀ i : grid0.Coords, EltTy.bits .f32 = 32 ∨ (Rect.block (s := S4096x16384) S512x2048.size (cc0_transform_4 i) (hinb0_4 i)).WholeWords (EltTy.packing .f32)

variable [Facts₀]

def dot_S16384x16_S16x4_S16384x4_1_0_0_1_n_n : DotDims S16384x16 S16x4 S16384x4 where
  lhsContracting := [1]
  rhsContracting := [0]
  lhsNonContracting := [0]
  rhsNonContracting := [1]
  lhsBatch := []
  rhsBatch := []
  wf := dot_S16384x16_S16x4_S16384x4_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S4x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x4096 : Shape := ⟨2, ![4096, 4096]⟩
abbrev S16384x16 : Shape := ⟨2, ![16384, 16]⟩
abbrev S16384x2 : Shape := ⟨2, ![16384, 2]⟩
abbrev S16x4 : Shape := ⟨2, ![16, 4]⟩
abbrev S_ : Shape := ⟨0, ![]⟩
abbrev S16384 : Shape := ⟨1, ![16384]⟩
abbrev S16384x1 : Shape := ⟨2, ![16384, 1]⟩
abbrev S16384x4 : Shape := ⟨2, ![16384, 4]⟩
abbrev S4096x16384 : Shape := ⟨2, ![4096, 16384]⟩
abbrev S1x16384 : Shape := ⟨2, ![1, 16384]⟩

abbrev nBuf : Space → Nat
  | .hbm => 64
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S16384x16, .f32⟩
  | .hbm, ⟨2, _⟩ => ⟨S16384x2, .i32⟩
  | .hbm, ⟨3, _⟩ => ⟨S16x4, .f32⟩
  | .hbm, ⟨4, _⟩ => ⟨S_, .f32⟩
  | .hbm, ⟨5, _⟩ => ⟨S16384, .f32⟩
  | .hbm, ⟨6, _⟩ => ⟨S_, .f32⟩
  | .hbm, ⟨7, _⟩ => ⟨S16384, .f32⟩
  | .hbm, ⟨8, _⟩ => ⟨S16384, .f32⟩
  | .hbm, ⟨9, _⟩ => ⟨S16384x1, .f32⟩
  | .hbm, ⟨10, _⟩ => ⟨S16384x16, .f32⟩
  | .hbm, ⟨11, _⟩ => ⟨S16384x16, .f32⟩
  | .hbm, ⟨12, _⟩ => ⟨S16384x16, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S16384x16, .f32⟩
  | .hbm, ⟨17, _⟩ => ⟨S16384x16, .f32⟩
  | .hbm, ⟨18, _⟩ => ⟨S16384x4, .f32⟩
  | .hbm, ⟨19, _⟩ => ⟨S16384x1, .i32⟩
  | .hbm, ⟨20, _⟩ => ⟨S16384, .i32⟩
  | .hbm, ⟨21, _⟩ => ⟨S_, .i32⟩
  | .hbm, ⟨22, _⟩ => ⟨S16384, .i32⟩
  | .hbm, ⟨23, _⟩ => ⟨S16384, .i1⟩
  | .hbm, ⟨24, _⟩ => ⟨S_, .i32⟩
  | .hbm, ⟨25, _⟩ => ⟨S16384, .i32⟩
  | .hbm, ⟨26, _⟩ => ⟨S16384, .i32⟩
  | .hbm, ⟨27, _⟩ => ⟨S16384, .i32⟩
  | .hbm, ⟨28, _⟩ => ⟨S16384x1, .i32⟩
  | .hbm, ⟨29, _⟩ => ⟨S4096x16384, .f32⟩
  | .hbm, ⟨30, _⟩ => ⟨S16384x1, .i32⟩
  | .hbm, ⟨31, _⟩ => ⟨S16384, .i32⟩
  | .hbm, ⟨32, _⟩ => ⟨S_, .i32⟩
  | .hbm, ⟨33, _⟩ => ⟨S16384, .i32⟩
  | .hbm, ⟨34, _⟩ => ⟨S16384, .i1⟩
  | .hbm, ⟨35, _⟩ => ⟨S_, .i32⟩
  | .hbm, ⟨36, _⟩ => ⟨S16384, .i32⟩
  | .hbm, ⟨37, _⟩ => ⟨S16384, .i32⟩
  | .hbm, ⟨38, _⟩ => ⟨S16384, .i32⟩
  | .hbm, ⟨39, _⟩ => ⟨S16384x1, .i32⟩
  | .hbm, ⟨40, _⟩ => ⟨S4096x16384, .f32⟩
  | .hbm, ⟨41, _⟩ => ⟨S16384x1, .f32⟩
  | .hbm, ⟨42, _⟩ => ⟨S16384, .f32⟩
  | .hbm, ⟨43, _⟩ => ⟨S16384x1, .f32⟩
  | .hbm, ⟨44, _⟩ => ⟨S16384, .f32⟩
  | .hbm, ⟨45, _⟩ => ⟨S1x16384, .f32⟩
  | .hbm, ⟨46, _⟩ => ⟨S4096x16384, .f32⟩
  | .hbm, ⟨47, _⟩ => ⟨S4096x16384, .f32⟩
  | .hbm, ⟨48, _⟩ => ⟨S1x16384, .f32⟩
  | .hbm, ⟨49, _⟩ => ⟨S4096x16384, .f32⟩
  | .hbm, ⟨50, _⟩ => ⟨S4096x16384, .f32⟩
  | .hbm, ⟨51, _⟩ => ⟨S16384x1, .f32⟩
  | .hbm, ⟨52, _⟩ => ⟨S16384, .f32⟩
  | .hbm, ⟨53, _⟩ => ⟨S1x16384, .f32⟩
  | .hbm, ⟨54, _⟩ => ⟨S4096x16384, .f32⟩
  | .hbm, ⟨55, _⟩ => ⟨S4096x16384, .f32⟩
  | .hbm, ⟨56, _⟩ => ⟨S4096x16384, .f32⟩
  | .hbm, ⟨57, _⟩ => ⟨S16384x1, .f32⟩
  | .hbm, ⟨58, _⟩ => ⟨S16384, .f32⟩
  | .hbm, ⟨59, _⟩ => ⟨S4096x16384, .f32⟩
  | .hbm, ⟨60, _⟩ => ⟨S1x16384, .f32⟩
  | .hbm, ⟨61, _⟩ => ⟨S4096x16384, .f32⟩
  | .hbm, ⟨62, _⟩ => ⟨S4096x16384, .f32⟩
  | .hbm, ⟨63, _⟩ => ⟨S4096x16384, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_cst_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_c_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_4 : Ref sig .tc := ⟨.hbm, 32, rfl⟩
abbrev main_v23 : Ref sig .tc := ⟨.hbm, 33, rfl⟩
abbrev main_v24 : Ref sig .tc := ⟨.hbm, 34, rfl⟩
abbrev main_c_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩

abbrev nD : Nat := 1
abbrev τ : Topo := Topo.v7x

variable {F : FTy → Type} [FloatOps F]

class Facts₀ : Prop where
  reducesTo_S16384x16_S16384_d1 : S16384x16.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x16_0_1 : S16384x1.BroadcastsInDim S16384x16 (![0, 1] : Fin 2 → Fin S16384x16.rank)
  slices_S16384x2_S16384x1_0_0 : S16384x2.Slices ![0, 0] S16384x1
  shapeCasts_S16384x1_S16384 : S16384x1.ShapeCasts S16384
  slices_S16384x2_S16384x1_0_1 : S16384x2.Slices ![0, 1] S16384x1
  slices_S16384x4_S16384x1_0_0 : S16384x4.Slices ![0, 0] S16384x1
  slices_S16384x4_S16384x1_0_1 : S16384x4.Slices ![0, 1] S16384x1
  bcast_S16384_S1x16384_1 : S16384.BroadcastsInDim S1x16384 (![1] : Fin 1 → Fin S1x16384.rank)
  bcast_S1x16384_S4096x16384_0_1 : S1x16384.BroadcastsInDim S4096x16384 (![0, 1] : Fin 2 → Fin S4096x16384.rank)
  slices_S16384x4_S16384x1_0_2 : S16384x4.Slices ![0, 2] S16384x1
  slices_S16384x4_S16384x1_0_3 : S16384x4.Slices ![0, 3] S16384x1
  dot_S16384x16_S16x4_S16384x4_1_0_0_1_n_n_wf : DotDims.WF S16384x16 S16x4 S16384x4 [1] [0] [0] [1] [] []
  gather_S4096x4096_S16384x1_S4096x16384_0_1_n_n_1_1_40961_wf : GatherDims.WF S4096x4096 S16384x1 S4096x16384 [0] [1] [] [1] [] 1 ![4096, 1]

variable [Facts₀]

def dot_S16384x16_S16x4_S16384x4_1_0_0_1_n_n : DotDims S16384x16 S16x4 S16384x4 where
  lhsContracting := [1]
  rhsContracting := [0]
  lhsNonContracting := [0]
  rhsNonContracting := [1]
  lhsBatch := []
  rhsBatch := []
  wf := dot_S16384x16_S16x4_S16384x4_1_0_0_1_n_n_wf
def gather_S4096x4096_S16384x1_S4096x16384_0_1_n_n_1_1_40961 : GatherDims S4096x4096 S16384x1 S4096x16384 where
  offsetDims := [0]
  collapsedSliceDims := [1]
  operandBatchingDims := []
  startIndicesBatchingDims := []
  startIndexMap := [1]
  indexVectorDim := 1
  sliceSizes := ![4096, 1]
  wf := gather_S4096x4096_S16384x1_S4096x16384_0_1_n_n_1_1_40961_wf

class Facts : Prop extends Facts₀ where

variable [Facts]
-- ==== Proof.Spec.lean ====
/-
  The layer as one function of its inputs. Output channel n reads two columns of the input matrix,
      a = x[m, i₀(n)]   and   b = x[m, i₁(n)],
  the columns named by the two index words of row n of the index table, and combines them with the four
  coefficients of that channel,
      out[m, n] = (c₀ + c₂·b) + a·(c₁ + c₃·b).
  Expanded, this is c₀ + c₁·a + c₂·b + c₃·(a·b): the two arrangements agree whenever every quantity is a real
  number (distributivity of the reals; on the extended reals it can fail at an infinite coefficient, which is why
  the inputs' finiteness is used).
-/
import Idealize.ShloMosaic.PureOps.Ideal
import Idealize.ShloMosaic.Lib.ValueIdx

noncomputable section

namespace Cert.LogicLayer

open Idealize.ShloMosaic Idealize.ShloMosaic.ValueIdx

/-- The input matrix's shape, the index table's, the coefficient table's and the result's. -/
abbrev SX : Shape := ⟨2, ![4096, 4096]⟩
abbrev SI : Shape := ⟨2, ![16384, 2]⟩
abbrev SC : Shape := ⟨2, ![16384, 4]⟩
abbrev SO : Shape := ⟨2, ![4096, 16384]⟩

/-- The column an index word names: its value as a natural number (a word in range is below 4096, and then the
    remainder changes nothing). -/
def col (v : BitVec 32) : Fin 4096 := ⟨v.toNat % 4096, Nat.mod_lt _ (by norm_num)⟩

/-- An index word in range: non-negative and below 4096 as a signed integer. -/
def InRange (v : BitVec 32) : Prop := 0 ≤ v.toInt ∧ v.toInt < 4096

/-- A word in range has its natural value below 4096. -/
theorem InRange.toNat_lt {v : BitVec 32} (h : InRange v) : v.toNat < 4096 := by
  obtain ⟨h0, h1⟩ := h
  have := BitVec.toInt_eq_toNat_cond v
  split at this <;> omega

/-- A word in range names the column of its own value. -/
theorem col_val {v : BitVec 32} (h : InRange v) : (col v).val = v.toNat := by
  unfold col
  exact Nat.mod_eq_of_lt h.toNat_lt

/-- The operand channel `n` gathers through its index word number `s`: row `m` of the input at that column. -/
def pick (X : FVec Ideal SX .f32) (I : IVec SI 32) (s : Fin 2) (m : Fin 4096) (n : Fin 16384) : EReal :=
  X (ix2 m (col (I (ix2 n s))))

/-- The result, in the kernel's arrangement. -/
def out (X : FVec Ideal SX .f32) (C : FVec Ideal SC .f32) (I : IVec SI 32) : FVec Ideal SO .f32 := fun y =>
  (C (ix2 (y 1) (0 : Fin 4)) + C (ix2 (y 1) (2 : Fin 4)) * pick X I 1 (y 0) (y 1))
    + pick X I 0 (y 0) (y 1) * (C (ix2 (y 1) (1 : Fin 4)) + C (ix2 (y 1) (3 : Fin 4)) * pick X I 1 (y 0) (y 1))

/-- The result, in the reference's arrangement. -/
def outExpanded (X : FVec Ideal SX .f32) (C : FVec Ideal SC .f32) (I : IVec SI 32) : FVec Ideal SO .f32 := fun y =>
  ((C (ix2 (y 1) (0 : Fin 4)) + C (ix2 (y 1) (1 : Fin 4)) * pick X I 0 (y 0) (y 1))
      + C (ix2 (y 1) (2 : Fin 4)) * pick X I 1 (y 0) (y 1))
    + C (ix2 (y 1) (3 : Fin 4)) * (pick X I 0 (y 0) (y 1) * pick X I 1 (y 0) (y 1))

/-- The two arrangements on real numbers. -/
theorem arrangements_real (a b c0 c1 c2 c3 : ℝ) :
    (((c0 : EReal) + (c2 : EReal) * (b : EReal)) + (a : EReal) * ((c1 : EReal) + (c3 : EReal) * (b : EReal)))
      = ((((c0 : EReal) + (c1 : EReal) * (a : EReal)) + (c2 : EReal) * (b : EReal)) + (c3 : EReal) * ((a : EReal) * (b : EReal))) := by
  simp only [← EReal.coe_mul, ← EReal.coe_add]
  congr 1
  ring

/-- With every input entry and every coefficient a real number the two arrangements are one function. -/
theorem out_eq_outExpanded (X : FVec Ideal SX .f32) (C : FVec Ideal SC .f32) (I : IVec SI 32)
    (hX : ∀ i, ∃ r : ℝ, X i = (r : EReal)) (hC : ∀ i, ∃ r : ℝ, C i = (r : EReal)) :
    out X C I = outExpanded X C I := by
  funext y
  obtain ⟨a, ha⟩ := hX (ix2 (y 0) (col (I (ix2 (y 1) (0 : Fin 2)))))
  obtain ⟨b, hb⟩ := hX (ix2 (y 0) (col (I (ix2 (y 1) (1 : Fin 2)))))
  obtain ⟨c0, h0⟩ := hC (ix2 (y 1) (0 : Fin 4))
  obtain ⟨c1, h1⟩ := hC (ix2 (y 1) (1 : Fin 4))
  obtain ⟨c2, h2⟩ := hC (ix2 (y 1) (2 : Fin 4))
  obtain ⟨c3, h3⟩ := hC (ix2 (y 1) (3 : Fin 4))
  show (C _ + C _ * pick X I 1 (y 0) (y 1)) + pick X I 0 (y 0) (y 1) * (C _ + C _ * pick X I 1 (y 0) (y 1))
    = ((C _ + C _ * pick X I 0 (y 0) (y 1)) + C _ * pick X I 1 (y 0) (y 1)) + C _ * (pick X I 0 (y 0) (y 1) * pick X I 1 (y 0) (y 1))
  unfold pick
  rw [ha, hb, h0, h1, h2, h3]
  exact arrangements_real a b c0 c1 c2 c3

end Cert.LogicLayer

end
-- ==== Proof.PreDecode.lean ====
/-
  What the precondition says. Its printed form is one bit: the conjunction of four whole-array tests, that every
  entry of the input matrix and of the weight table has absolute value below +∞, and that every index word is at
  least 0 and below 4096 as a signed integer. Read entry by entry: the two float arrays hold real numbers, and
  every index word is in range.
-/
import proofs.«407184_j27075473834525_2_alg».proof.Pre_finite_inputs
import proofs.«407184_j27075473834525_2_alg».proof.Proof.Gen.Pre_finite_inputs
import proofs.«407184_j27075473834525_2_alg».proof.Proof.Spec
import Idealize.ShloMosaic.Lib.ReduceAll
import Idealize.ShloMosaic.Lib.StableHlo.Predicate
import Idealize.ShloMosaic.Lib.ValueIdx

noncomputable section

namespace Cert.LogicLayer

open Idealize.ShloMosaic Idealize.ShloMosaic.ValueIdx Cert.Pre_finite_inputs Cert.Pre_finite_inputs.Gen

/-- The rank-0 shape has one index. -/
private instance : Subsingleton S_.Idx := ⟨fun a b => funext fun d => d.elim0⟩

/-- The word 0x7F800000 denotes +∞. -/
private theorem inf_word : Ideal.ofBits .f32 0x7F800000#32 = (⊤ : EReal) := by
  simp [Ideal.ofBits, Ideal.ieee]

/-- An extended real whose absolute value max x (−x) is below +∞ is a real number: at ⊥ and at ⊤ the absolute value
    is ⊤. -/
private theorem real_of_abs_lt_top (x : EReal) (hx : max x (-x) < (⊤ : EReal)) : ∃ r : ℝ, x = (r : EReal) := by
  induction x using EReal.rec with
  | bot => simp at hx
  | coe r => exact ⟨r, rfl⟩
  | top => simp at hx

/-- The printed element test, |x| < +∞ as a comparison bit that is 1, says x is a real number. -/
private theorem real_of_test (x : EReal)
    (t : Ideal.cmp .olt (max x (-x)) (Ideal.ofBits .f32 0x7F800000#32) = 1#1) : ∃ r : ℝ, x = (r : EReal) := by
  rw [inf_word] at t
  have d : decide (max x (-x) < (⊤ : EReal)) = true := (StableHlo.Predicate.ofBool_eq_one_iff _).1 t
  exact real_of_abs_lt_top x (of_decide_eq_true d)

/-- The precondition, entry by entry: both float arrays hold real numbers and every index word is in range. -/
theorem pre_decode (X : FVec Ideal S4096x4096 .f32) (W : FVec Ideal S16384x16 .f32) (I : IVec S16384x2 32)
    (h : Cert.Pre_finite_inputs.fn (F := Ideal) X W I = fun _ => 1#1) :
    (∀ i, ∃ r : ℝ, X i = (r : EReal)) ∧ (∀ i, ∃ r : ℝ, W i = (r : EReal)) ∧ (∀ i, InRange (I i)) := by
  have e := congrFun h ValueIdx.ix0
  dsimp only [Cert.Pre_finite_inputs.fn, Cert.Pre_finite_inputs.fn_part1] at e
  -- the printed result is the conjunction of the four whole-array tests
  obtain ⟨e123, e4⟩ := IntOp.andi_eq_one.1 e
  obtain ⟨e12, e3⟩ := IntOp.andi_eq_one.1 e123
  obtain ⟨e1, e2⟩ := IntOp.andi_eq_one.1 e12
  refine ⟨fun i => ?_, fun i => ?_, fun i => ⟨?_, ?_⟩⟩
  · -- |X i| < +∞
    have t := Host.reduce_andi_all _ _ _ _ _ e1 i
    exact real_of_test (X i) t
  · -- |W i| < +∞
    have t := Host.reduce_andi_all _ _ _ _ _ e2 i
    exact real_of_test (W i) t
  · -- 0 ≤ I i, signed
    have t := Host.reduce_andi_all _ _ _ _ _ e3 i
    have t' : IntOp.cmpi .sge (I i) (0#32) = 1#1 := t
    have := IntOp.cmpi_sge.1 t'
    rwa [show (0#32 : BitVec 32).toInt = 0 from by decide] at this
  · -- I i < 4096, signed
    have t := Host.reduce_andi_all _ _ _ _ _ e4 i
    have t' : IntOp.cmpi .slt (I i) (4096#32) = 1#1 := t
    have := IntOp.cmpi_slt.1 t'
    rwa [show (4096#32 : BitVec 32).toInt = 4096 from by decide] at this

end Cert.LogicLayer

end
-- ==== Proof.Coef.lean ====
/-
  The channel coefficients. Row n of the weight table is turned into a probability vector by the softmax
      g[n, k] = exp(w[n, k] − maxₖ w[n, k]) / Σₖ exp(w[n, k] − maxₖ w[n, k]),
  and the four coefficients of channel n are its product with the 16 × 4 table of the sixteen gates' affine forms,
      c[n, j] = Σₖ g[n, k] · B[k, j].
  Both programs compute exactly this chain; it is stated once, over the shape relations its operations take, so that
  each program's chain is an instance of it. For a weight table of real numbers every coefficient is a real number:
  the maximum of sixteen reals is real, the exponentials are positive reals, their sum is a positive real, the
  quotients are real, and a sum of sixteen products of reals is real.
-/
import Idealize.ShloMosaic.PureOps.Ideal
import Idealize.ShloMosaic.PureOps.Ideal.Laws
import Idealize.ShloMosaic.Lib.ValueIdx

noncomputable section

namespace Cert.LogicLayer

open Idealize.ShloMosaic Idealize.ShloMosaic.ValueIdx

/-- The weight table's shape, the gate table's, the scalar shape, a vector over the channels and its column form, and
    the coefficient table's. -/
abbrev SW : Shape := ⟨2, ![16384, 16]⟩
abbrev SB : Shape := ⟨2, ![16, 4]⟩
abbrev S0 : Shape := ⟨0, ![]⟩
abbrev SR : Shape := ⟨1, ![16384]⟩
abbrev SR1 : Shape := ⟨2, ![16384, 1]⟩
abbrev SCf : Shape := ⟨2, ![16384, 4]⟩

/-- The coefficient chain: the softmax of each row of `W` against the gate table `B`. -/
def coef (hred : SW.ReducesTo [1] SR) (h0 : 0 < S0.numel)
    (hb0 : S0.BroadcastsInDim SR (![] : Fin 0 → Fin SR.rank))
    (hb1 : SR.BroadcastsInDim SR1 (![0] : Fin 1 → Fin SR1.rank))
    (hb2 : SR1.BroadcastsInDim SW (![0, 1] : Fin 2 → Fin SW.rank))
    (D : DotDims SW SB SCf) (B : FVec Ideal SB .f32) (W : FVec Ideal SW .f32) : FVec Ideal SCf .f32 :=
  Host.dotGeneral (F := Ideal) D none
    (Host.divf (F := Ideal)
      (Host.exp (F := Ideal) (subf (F := Ideal) W (broadcastInDim SW ![0, 1] hb2 (broadcastInDim SR1 ![0] hb1
        (maximumf (F := Ideal) (broadcastInDim SR ![] hb0 (constant (F := Ideal) S0 .f32 0xFF800000#32))
          (Host.reduce (FloatOps.maximumf (F := Ideal)) W (constant (F := Ideal) S0 .f32 0xFF800000#32) hred h0))))))
      (broadcastInDim SW ![0, 1] hb2 (broadcastInDim SR1 ![0] hb1
        (Host.reduceAdd (F := Ideal)
          (Host.exp (F := Ideal) (subf (F := Ideal) W (broadcastInDim SW ![0, 1] hb2 (broadcastInDim SR1 ![0] hb1
            (maximumf (F := Ideal) (broadcastInDim SR ![] hb0 (constant (F := Ideal) S0 .f32 0xFF800000#32))
              (Host.reduce (FloatOps.maximumf (F := Ideal)) W (constant (F := Ideal) S0 .f32 0xFF800000#32) hred h0))))))
          (constant (F := Ideal) S0 .f32 0x00000000#32) hred h0))))
    B

/-! ### Real and positive-real extended reals

`IsReal x` says the extended real `x` is a real number, `IsPos x` that it is a positive one. Both are closed under
the operations the chain uses; the maximum of a nonempty family of reals with −∞ is real, and the sum of a nonempty
family of positive reals is a positive real. -/

private def IsReal (x : EReal) : Prop := ∃ r : ℝ, x = (r : EReal)
private def IsPos (x : EReal) : Prop := ∃ r : ℝ, 0 < r ∧ x = (r : EReal)

private theorem IsPos.isReal {x : EReal} (h : IsPos x) : IsReal x := let ⟨r, _, e⟩ := h; ⟨r, e⟩

private theorem IsReal.zero : IsReal 0 := ⟨0, EReal.coe_zero.symm⟩

private theorem IsReal.add {x y : EReal} (hx : IsReal x) (hy : IsReal y) : IsReal (x + y) := by
  obtain ⟨a, rfl⟩ := hx; obtain ⟨b, rfl⟩ := hy; exact ⟨a + b, (EReal.coe_add a b).symm⟩

private theorem IsReal.mul {x y : EReal} (hx : IsReal x) (hy : IsReal y) : IsReal (x * y) := by
  obtain ⟨a, rfl⟩ := hx; obtain ⟨b, rfl⟩ := hy; exact ⟨a * b, (EReal.coe_mul a b).symm⟩

private theorem IsReal.sub {x y : EReal} (hx : IsReal x) (hy : IsReal y) : IsReal (x - y) := by
  obtain ⟨a, rfl⟩ := hx; obtain ⟨b, rfl⟩ := hy; exact ⟨a - b, (EReal.coe_sub a b).symm⟩

private theorem IsReal.max {x y : EReal} (hx : IsReal x) (hy : IsReal y) : IsReal (max x y) := by
  rcases max_choice x y with h | h <;> rw [h] <;> assumption

private theorem IsReal.ne_bot {x : EReal} (hx : IsReal x) : x ≠ ⊥ := by
  obtain ⟨a, rfl⟩ := hx; exact EReal.coe_ne_bot a

private theorem IsPos.add {x y : EReal} (hx : IsPos x) (hy : IsPos y) : IsPos (x + y) := by
  obtain ⟨a, ha, rfl⟩ := hx; obtain ⟨b, hb, rfl⟩ := hy
  exact ⟨a + b, add_pos ha hb, (EReal.coe_add a b).symm⟩

/-- The exponential of a real number is a positive real number. -/
private theorem IsReal.exp {x : EReal} (hx : IsReal x) : IsPos (Ideal.exp x) := by
  obtain ⟨a, rfl⟩ := hx; exact ⟨Real.exp a, Real.exp_pos a, Ideal.exp_coe a⟩

/-- A real number divided by a positive real number is a real number. -/
private theorem IsReal.div {x y : EReal} (hx : IsReal x) (hy : IsPos y) : IsReal (Ideal.div x y) := by
  obtain ⟨b, hb, rfl⟩ := hy
  rw [Ideal.div_coe hb.ne']
  exact hx.mul ⟨1 / b, rfl⟩

/-- The maximum of a family of reals, folded from an initial value that is real or −∞, is real or −∞. -/
private theorem fold_max_real_or_bot {ι : Type} (f : ι → EReal) (hf : ∀ k, IsReal (f k)) (b : EReal)
    (hb : b = ⊥ ∨ IsReal b) (S : Finset ι) : S.fold max b f = ⊥ ∨ IsReal (S.fold max b f) := by
  classical
  induction S using Finset.induction_on with
  | empty => simpa using hb
  | insert a S ha ih =>
    rw [Finset.fold_insert ha]
    rcases ih with h | h
    · rw [h, max_bot_right]; exact Or.inr (hf a)
    · exact Or.inr ((hf a).max h)

/-- Over a nonempty index set it is real: it is at least one of the reals. -/
private theorem fold_max_real {ι : Type} (f : ι → EReal) (hf : ∀ k, IsReal (f k)) (S : Finset ι) (hS : S.Nonempty) :
    IsReal (S.fold max ⊥ f) := by
  rcases fold_max_real_or_bot f hf ⊥ (Or.inl rfl) S with h | h
  · obtain ⟨k, hk⟩ := hS
    have hle : f k ≤ S.fold max ⊥ f := (Finset.le_fold_max _).2 (Or.inr ⟨k, hk, le_rfl⟩)
    rw [h, le_bot_iff] at hle
    exact absurd hle (hf k).ne_bot
  · exact h

/-- A sum of reals is real. -/
private theorem sum_real {ι : Type} (f : ι → EReal) (S : Finset ι) (hf : ∀ k ∈ S, IsReal (f k)) : IsReal (∑ k ∈ S, f k) :=
  Finset.sum_induction f IsReal (fun _ _ => IsReal.add) IsReal.zero hf

/-- A sum of positive reals over a nonempty index set is a positive real. -/
private theorem sum_pos {ι : Type} (f : ι → EReal) (S : Finset ι) (hS : S.Nonempty) (hf : ∀ k ∈ S, IsPos (f k)) :
    IsPos (∑ k ∈ S, f k) :=
  Finset.sum_induction_nonempty f IsPos (fun _ _ => IsPos.add) hS hf

/-- Whatever a broadcast reads, it reads an entry of its operand. -/
private theorem broadcastInDim_all {s t : Shape} {dims : Fin s.rank → Fin t.rank} (h : s.BroadcastsInDim t dims)
    (P : EReal → Prop) (x : s.Idx → EReal) (hx : ∀ i, P (x i)) (j : t.Idx) : P (broadcastInDim t dims h x j) :=
  hx _

/-- The elementwise quotient of a real array by a positive real array is a real array. -/
private theorem hostDivf_all {s : Shape} (x y : FVec Ideal s .f32) (hx : ∀ i, IsReal (x i)) (hy : ∀ i, IsPos (y i))
    (i : s.Idx) : IsReal (Host.divf (F := Ideal) x y i) :=
  IsReal.div (hx i) (hy i)

/-- The f32 pattern of −∞ denotes the bottom of the extended reals. -/
private theorem ofBits_neg_inf : Ideal.ofBits .f32 0xFF800000#32 = ⊥ := by simp [Ideal.ofBits, Ideal.ieee]

/-- For a weight table and a gate table of real numbers every coefficient is a real number. -/
theorem coef_real (hred : SW.ReducesTo [1] SR) (h0 : 0 < S0.numel)
    (hb0 : S0.BroadcastsInDim SR (![] : Fin 0 → Fin SR.rank))
    (hb1 : SR.BroadcastsInDim SR1 (![0] : Fin 1 → Fin SR1.rank))
    (hb2 : SR1.BroadcastsInDim SW (![0, 1] : Fin 2 → Fin SW.rank))
    (D : DotDims SW SB SCf) (B : FVec Ideal SB .f32) (W : FVec Ideal SW .f32)
    (hW : ∀ i, ∃ r : ℝ, W i = (r : EReal)) (hB : ∀ i, ∃ r : ℝ, B i = (r : EReal)) :
    ∀ i, ∃ r : ℝ, coef hred h0 hb0 hb1 hb2 D B W i = (r : EReal) := by
  classical
  have hR : SW.Reduces [1] SR := by decide
  -- the row maximum: the fold of max from −∞ over the row's sixteen reals
  have hM : ∀ j, IsReal (Host.reduce (FloatOps.maximumf (F := Ideal) (φ := .f32)) W (constant (F := Ideal) S0 .f32 0xFF800000#32) hred h0 j) := by
    intro j
    rw [Host.reduce_eq_fold_single (FloatOps.maximumf (F := Ideal) (φ := .f32)) W _ hred hR h0 j]
    show IsReal ((Finset.univ : Finset (Fin 16)).fold max (Ideal.ofBits .f32 0xFF800000#32) (W ∘ hR.lift j))
    rw [ofBits_neg_inf]
    exact fold_max_real _ (fun k => hW _) _ ⟨(0 : Fin 16), Finset.mem_univ _⟩
  -- against the −∞ broadcast it is unchanged
  have hM' : ∀ j, IsReal (maximumf (F := Ideal) (broadcastInDim SR ![] hb0 (constant (F := Ideal) S0 .f32 0xFF800000#32))
      (Host.reduce (FloatOps.maximumf (F := Ideal) (φ := .f32)) W (constant (F := Ideal) S0 .f32 0xFF800000#32) hred h0) j) := by
    intro j
    show IsReal (max (Ideal.ofBits .f32 0xFF800000#32) _)
    rw [ofBits_neg_inf, max_bot_left]
    exact hM j
  -- the shifted entries are real, their exponentials positive reals
  have hE : ∀ p, IsPos (Host.exp (F := Ideal) (subf (F := Ideal) W (broadcastInDim SW ![0, 1] hb2 (broadcastInDim SR1 ![0] hb1
        (maximumf (F := Ideal) (broadcastInDim SR ![] hb0 (constant (F := Ideal) S0 .f32 0xFF800000#32))
          (Host.reduce (FloatOps.maximumf (F := Ideal) (φ := .f32)) W (constant (F := Ideal) S0 .f32 0xFF800000#32) hred h0))))) p) := by
    intro p
    refine IsReal.exp (IsReal.sub (hW p) ?_)
    exact broadcastInDim_all hb2 IsReal _ (fun q => broadcastInDim_all hb1 IsReal _ hM' q) p
  -- the row sums: zero plus the sum of sixteen positive reals
  have hS : ∀ j, IsPos (Host.reduceAdd (F := Ideal)
          (Host.exp (F := Ideal) (subf (F := Ideal) W (broadcastInDim SW ![0, 1] hb2 (broadcastInDim SR1 ![0] hb1
            (maximumf (F := Ideal) (broadcastInDim SR ![] hb0 (constant (F := Ideal) S0 .f32 0xFF800000#32))
              (Host.reduce (FloatOps.maximumf (F := Ideal) (φ := .f32)) W (constant (F := Ideal) S0 .f32 0xFF800000#32) hred h0))))))
          (constant (F := Ideal) S0 .f32 0x00000000#32) hred h0 j) := by
    intro j
    show IsPos (Ideal.hostReduceAdd hred _ (Ideal.ofBits .f32 0x00000000#32) j)
    rw [Ideal.hostReduceAdd_single hred hR, Ideal.ofBits_zero_f32, zero_add]
    exact sum_pos _ _ ⟨(0 : Fin 16), Finset.mem_univ _⟩ (fun k _ => hE _)
  -- the quotients are real, and so is each sum of products with the real gate table
  intro i
  show IsReal _
  unfold coef
  show IsReal (FloatOps.dotGeneral (F := Ideal) D none HostSchedule.single _ _ i)
  rw [Ideal.dotGeneral_apply]
  apply sum_real
  intro k _
  apply IsReal.mul
  · exact hostDivf_all _ _ (fun p => (hE p).isReal)
      (fun p => broadcastInDim_all hb2 IsPos _ (fun q => broadcastInDim_all hb1 IsPos _ hS q) p) _
  · exact hB _

end Cert.LogicLayer

end
-- ==== Proof.KBlocks.lean ====
/-
  What the body reads at grid point t = (i, j, k), numbered t = 64·i + 8·j + k. The input tile is rows
  512·i … 512·i + 511 and columns 512·k … 512·k + 511 of the input matrix; the two index rows are channels
  2048·j … 2048·j + 2047 of the index table's two columns (the host slices a column out and lays it as a row); the
  coefficient block is the same channels of the coefficient table, transposed by the host so that a coefficient's
  four values lie in four rows.
-/
import proofs.«407184_j27075473834525_2_alg».proof.Proof.Gen.KernelIdeal.Frame
import proofs.«407184_j27075473834525_2_alg».proof.Proof.Spec
import proofs.«407184_j27075473834525_2_alg».proof.Proof.Coef
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.LogicLayer

variable (m : (ℓ : Loc nD τ sig) → Buf (Elt Ideal) ℓ)

/-- The three argument arrays as launched. -/
abbrev Xa (c : Dev nD) : FVec Ideal S4096x4096 .f32 := m ((c : Thread nD τ).loc main_arg0)
abbrev Wa (c : Dev nD) : FVec Ideal S16384x16 .f32 := m ((c : Thread nD τ).loc main_arg1)
abbrev Ia (c : Dev nD) : IVec S16384x2 32 := m ((c : Thread nD τ).loc main_arg2)

/-- This program's coefficient chain: the shared chain at this program's shape relations and gate table. -/
def coefK (W : FVec Ideal S16384x16 .f32) : FVec Ideal S16384x4 .f32 :=
  coef reducesTo_S16384x16_S16384_d1 h_S_ bcast_S_S16384 bcast_S16384_S16384x1_0 bcast_S16384x1_S16384x16_0_1
    dot_S16384x16_S16x4_S16384x4_1_0_0_1_n_n (fun i => FloatOps.ofBits (F := Ideal) .f32 (lit0 (S16x4.rowMajor i))) W

/-- The four input blocks at a point, under their literal types. -/
abbrev xblk (c : Dev nD) (t : Fin cfg0.N) : Vec Ideal S512x512 .f32 := iblk m c 0 t
abbrev i0blk (c : Dev nD) (t : Fin cfg0.N) : Vec Ideal S1x2048 .i32 := iblk m c 1 t
abbrev i1blk (c : Dev nD) (t : Fin cfg0.N) : Vec Ideal S1x2048 .i32 := iblk m c 2 t
abbrev cblk (c : Dev nD) (t : Fin cfg0.N) : Vec Ideal S4x2048 .f32 := iblk m c 3 t

/-- The K-step of point t is its number's remainder by 8 (the third grid coordinate is the innermost). -/
theorem coord_k (t : Fin cfg0.N) : ((grid0.coords t) 2).val = t.val % 8 :=
  (by decide +kernel : ∀ t : Fin grid0.N, ((grid0.coords t) 2).val = t.val % 8) t

/-- The number of points. -/
theorem npoints : cfg0.N = 512 := N_0

/-- The block indices of the four input windows at point t = 64·i + 8·j + k: the tile is block (i, k), the three
    channel blocks are block (0, j). Decided over the 512 points. -/
private theorem block_index : ∀ t : Fin cfg0.N,
    win0_0.index t (0 : Fin 2) = t.val / 64 ∧ win0_0.index t (1 : Fin 2) = t.val % 8
    ∧ win0_1.index t (0 : Fin 2) = 0 ∧ win0_1.index t (1 : Fin 2) = t.val / 8 % 8
    ∧ win0_2.index t (0 : Fin 2) = 0 ∧ win0_2.index t (1 : Fin 2) = t.val / 8 % 8
    ∧ win0_3.index t (0 : Fin 2) = 0 ∧ win0_3.index t (1 : Fin 2) = t.val / 8 % 8 :=
  (by decide +kernel : ∀ t : Fin grid0.N, _)

/-- The first index row as the region finds it: entry n is the first index word of channel n (the host cuts column 0
    out of the index table and lays it as a row). -/
private theorem idx0_row (c : Dev nD) (n : Fin 16384) :
    (V m c main_v15 : S1x16384.Idx → BitVec 32) (ix2 (0 : Fin 1) n) = Ia m c (ix2 n (0 : Fin 2)) := by
  have e : (V m c main_v15 : S1x16384.Idx → BitVec 32)
      = shapeCast S1x16384 (shapeCast S16384 (extractStridedSlice S16384x1 ![0, 0] (Ia m c) slices_S16384x2_S16384x1_0_0)
          shapeCasts_S16384x1_S16384) shapeCasts_S16384_S1x16384 := by
    dsimp only [Gen.V, Gen.hostOps0]; after_results; rfl
  rw [e]
  refine (shapeCast_a_1a_apply _ _ (0 : Fin 1) n).trans ?_
  refine (shapeCast_apply _ _ (ix1 n) (ix2 n (0 : Fin 1)) ?_).trans ?_
  · rw [Shape.rowMajor_val_two, Shape.rowMajor_val_one]; show n.val * 1 + 0 = n.val; omega
  · exact slice2_axis1_apply 0 _ _ n (0 : Fin 1) (0 : Fin 2) rfl

/-- The second index row as the region finds it: entry n is the second index word of channel n. -/
private theorem idx1_row (c : Dev nD) (n : Fin 16384) :
    (V m c main_v18 : S1x16384.Idx → BitVec 32) (ix2 (0 : Fin 1) n) = Ia m c (ix2 n (1 : Fin 2)) := by
  have e : (V m c main_v18 : S1x16384.Idx → BitVec 32)
      = shapeCast S1x16384 (shapeCast S16384 (extractStridedSlice S16384x1 ![0, 1] (Ia m c) slices_S16384x2_S16384x1_0_1)
          shapeCasts_S16384x1_S16384) shapeCasts_S16384_S1x16384 := by
    dsimp only [Gen.V, Gen.hostOps0]; after_results; rfl
  rw [e]
  refine (shapeCast_a_1a_apply _ _ (0 : Fin 1) n).trans ?_
  refine (shapeCast_apply _ _ (ix1 n) (ix2 n (0 : Fin 1)) ?_).trans ?_
  · rw [Shape.rowMajor_val_two, Shape.rowMajor_val_one]; show n.val * 1 + 0 = n.val; omega
  · exact slice2_axis1_apply 1 _ _ n (0 : Fin 1) (1 : Fin 2) rfl

/-- The coefficient table as the region finds it, transposed: row s, entry n is coefficient s of channel n. -/
private theorem coef_rows (c : Dev nD) (s : Fin 4) (n : Fin 16384) :
    (V m c main_v12 : S4x16384.Idx → EReal) (ix2 s n) = coefK (Wa m c) (ix2 n s) := by
  have e : (V m c main_v12 : S4x16384.Idx → EReal)
      = transpose S4x16384 [1, 0] (coefK (Wa m c)) transposes_S16384x4_S4x16384_1_0 := by
    dsimp only [Gen.V, Gen.hostOps0]; after_results; rfl
  rw [e]
  exact transpose_ix2_apply _ _ s n

/-- The input tile at point t, entry (p, r): row 512·i + p, column 512·k + r of the input matrix. -/
theorem xblk_apply (c : Dev nD) (t : Fin cfg0.N) (ht : t.val < 512) (p r : Fin 512) :
    xblk m c t (ix2 p r)
      = Xa m c (ix2 (⟨512 * (t.val / 64) + p.val, by have := p.isLt; omega⟩ : Fin 4096)
                    (⟨512 * (t.val % 8) + r.val, by have := r.isLt; omega⟩ : Fin 4096)) := by
  obtain ⟨e0, e1, -⟩ := block_index t
  show ((cfg0.win 0).blk t).view.read (Elt Ideal) (V m c (Pipeline.arrRef spec0 0)) (ix2 p r) = _
  rw [View.read_apply]
  show V m c main_arg0 (((cfg0.win 0).blk t).view.emb (ix2 p r)) = m ((c : Thread nD τ).loc main_arg0) _
  rw [V_main_arg0]
  congr 1
  funext a
  apply Fin.ext
  match a with
  | ⟨0, _⟩ => show win0_0.index t (0 : Fin 2) * 512 + 1 * p.val = 512 * (t.val / 64) + p.val; omega
  | ⟨1, _⟩ => show win0_0.index t (1 : Fin 2) * 512 + 1 * r.val = 512 * (t.val % 8) + r.val; omega

/-- The first index row at point t, entry q: the first index word of channel 2048·j + q. -/
theorem i0blk_apply (c : Dev nD) (t : Fin cfg0.N) (ht : t.val < 512) (q : Fin 2048) :
    i0blk m c t (ix2 (0 : Fin 1) q)
      = Ia m c (ix2 (⟨2048 * (t.val / 8 % 8) + q.val, by have := q.isLt; omega⟩ : Fin 16384) (0 : Fin 2)) := by
  obtain ⟨-, -, e0, e1, -⟩ := block_index t
  show ((cfg0.win 1).blk t).view.read (Elt Ideal) (V m c (Pipeline.arrRef spec0 1)) (ix2 (0 : Fin 1) q) = _
  rw [View.read_apply]
  show (V m c main_v15 : S1x16384.Idx → BitVec 32) (((cfg0.win 1).blk t).view.emb (ix2 (0 : Fin 1) q)) = _
  refine (congrArg (V m c main_v15 : S1x16384.Idx → BitVec 32) ?_).trans (idx0_row m c _)
  funext a
  apply Fin.ext
  match a with
  | ⟨0, _⟩ => show win0_1.index t (0 : Fin 2) * 1 + 1 * 0 = 0; omega
  | ⟨1, _⟩ => show win0_1.index t (1 : Fin 2) * 2048 + 1 * q.val = 2048 * (t.val / 8 % 8) + q.val; omega

/-- The second index row at point t, entry q: the second index word of channel 2048·j + q. -/
theorem i1blk_apply (c : Dev nD) (t : Fin cfg0.N) (ht : t.val < 512) (q : Fin 2048) :
    i1blk m c t (ix2 (0 : Fin 1) q)
      = Ia m c (ix2 (⟨2048 * (t.val / 8 % 8) + q.val, by have := q.isLt; omega⟩ : Fin 16384) (1 : Fin 2)) := by
  obtain ⟨-, -, -, -, e0, e1, -⟩ := block_index t
  show ((cfg0.win 2).blk t).view.read (Elt Ideal) (V m c (Pipeline.arrRef spec0 2)) (ix2 (0 : Fin 1) q) = _
  rw [View.read_apply]
  show (V m c main_v18 : S1x16384.Idx → BitVec 32) (((cfg0.win 2).blk t).view.emb (ix2 (0 : Fin 1) q)) = _
  refine (congrArg (V m c main_v18 : S1x16384.Idx → BitVec 32) ?_).trans (idx1_row m c _)
  funext a
  apply Fin.ext
  match a with
  | ⟨0, _⟩ => show win0_2.index t (0 : Fin 2) * 1 + 1 * 0 = 0; omega
  | ⟨1, _⟩ => show win0_2.index t (1 : Fin 2) * 2048 + 1 * q.val = 2048 * (t.val / 8 % 8) + q.val; omega

/-- The coefficient block at point t, row s, entry q: coefficient s of channel 2048·j + q. -/
theorem cblk_apply (c : Dev nD) (t : Fin cfg0.N) (ht : t.val < 512) (s : Fin 4) (q : Fin 2048) :
    cblk m c t (ix2 s q)
      = coefK (Wa m c) (ix2 (⟨2048 * (t.val / 8 % 8) + q.val, by have := q.isLt; omega⟩ : Fin 16384) s) := by
  obtain ⟨-, -, -, -, -, -, e0, e1⟩ := block_index t
  show ((cfg0.win 3).blk t).view.read (Elt Ideal) (V m c (Pipeline.arrRef spec0 3)) (ix2 s q) = _
  rw [View.read_apply]
  show (V m c main_v12 : S4x16384.Idx → EReal) (((cfg0.win 3).blk t).view.emb (ix2 s q)) = _
  refine (congrArg (V m c main_v12 : S4x16384.Idx → EReal) ?_).trans (coef_rows m c s _)
  funext a
  apply Fin.ext
  match a with
  | ⟨0, _⟩ => show win0_3.index t (0 : Fin 2) * 4 + 1 * s.val = s.val; omega
  | ⟨1, _⟩ => show win0_3.index t (1 : Fin 2) * 2048 + 1 * q.val = 2048 * (t.val / 8 % 8) + q.val; omega

end Cert.KernelIdeal.Blocks

end
-- ==== Proof.RefTerm.lean ====
/-
  The reference's result as one term of its three arguments, stage by stage: the channel coefficients (the shared
  softmax-and-gate-table chain); each index column with a negative word moved up by 4096 (the host's reading of a
  negative index as counted from the end); the two gathers of input columns at those words; each coefficient column
  laid along the channels and repeated down the rows; and the combination c₀ + c₁·a + c₂·b + c₃·(a·b).
-/
import proofs.«407184_j27075473834525_2_alg».proof.Proof.Gen.ReferenceIdeal
import proofs.«407184_j27075473834525_2_alg».proof.Proof.Spec
import proofs.«407184_j27075473834525_2_alg».proof.Proof.Coef

noncomputable section

namespace Cert.ReferenceIdeal.RefValue

open Cert.ReferenceIdeal Cert.ReferenceIdeal.Gen Idealize.ShloMosaic Cert.LogicLayer

/-- This program's coefficient chain: the shared chain at this program's shape relations and gate table. -/
def coefR (W : FVec Ideal S16384x16 .f32) : FVec Ideal S16384x4 .f32 :=
  coef reducesTo_S16384x16_S16384_d1 h_S_ bcast_S_S16384 bcast_S16384_S16384x1_0 bcast_S16384x1_S16384x16_0_1
    dot_S16384x16_S16x4_S16384x4_1_0_0_1_n_n (fun i => FloatOps.ofBits (F := Ideal) .f32 (lit0 (S16x4.rowMajor i))) W

/-- Column `off 1` of the index table as a vector over the channels. -/
def idxCol (I : IVec S16384x2 32) (off : Fin 2 → Nat) (hs : S16384x2.Slices off S16384x1) : IVec S16384 32 :=
  shapeCast S16384 (extractStridedSlice S16384x1 off I hs) shapeCasts_S16384x1_S16384

/-- An index vector with every negative word moved up by 4096, as a column. -/
def wrapped (v : IVec S16384 32) : IVec S16384x1 32 :=
  broadcastInDim S16384x1 ![0] bcast_S16384_S16384x1_0
    (select (cmpi .slt v (broadcastInDim S16384 ![] bcast_S_S16384 (constantI S_ 32 0#32)))
      (addi v (broadcastInDim S16384 ![] bcast_S_S16384 (constantI S_ 32 4096#32))) v)

/-- The input's columns gathered at an index vector: entry (m, n) is row m of the input at the column word n names. -/
def gathered (X : FVec Ideal S4096x4096 .f32) (v : IVec S16384 32) : FVec Ideal S4096x16384 .f32 :=
  Host.gather gather_S4096x4096_S16384x1_S4096x16384_0_1_n_n_1_1_40961 X (wrapped v)

/-- Column `off 1` of the coefficient table laid along the channels and repeated down the 4096 rows. -/
def coefRow (C : FVec Ideal S16384x4 .f32) (off : Fin 2 → Nat) (hs : S16384x4.Slices off S16384x1) :
    FVec Ideal S4096x16384 .f32 :=
  broadcastInDim S4096x16384 ![0, 1] bcast_S1x16384_S4096x16384_0_1
    (broadcastInDim S1x16384 ![1] bcast_S16384_S1x16384_1
      (shapeCast S16384 (extractStridedSlice S16384x1 off C hs) shapeCasts_S16384x1_S16384))

/-- The reference's result. -/
def refTerm (X : FVec Ideal S4096x4096 .f32) (W : FVec Ideal S16384x16 .f32) (I : IVec S16384x2 32) :
    FVec Ideal S4096x16384 .f32 :=
  addf (F := Ideal)
    (addf (F := Ideal)
      (addf (F := Ideal) (coefRow (coefR W) ![0, 0] slices_S16384x4_S16384x1_0_0)
        (mulf (F := Ideal) (coefRow (coefR W) ![0, 1] slices_S16384x4_S16384x1_0_1)
          (gathered X (idxCol I ![0, 0] slices_S16384x2_S16384x1_0_0))))
      (mulf (F := Ideal) (coefRow (coefR W) ![0, 2] slices_S16384x4_S16384x1_0_2)
        (gathered X (idxCol I ![0, 1] slices_S16384x2_S16384x1_0_1))))
    (mulf (F := Ideal) (coefRow (coefR W) ![0, 3] slices_S16384x4_S16384x1_0_3)
      (mulf (F := Ideal) (gathered X (idxCol I ![0, 0] slices_S16384x2_S16384x1_0_0))
        (gathered X (idxCol I ![0, 1] slices_S16384x2_S16384x1_0_1))))

end Cert.ReferenceIdeal.RefValue

end
-- ==== Proof.Glue.lean ====
/-
  The two programs carry the same gate table and so the same coefficient chain. The table's 64 words are the floats
  0, 1, −1, 2 and −2, each a real number, so under a weight table of real numbers every coefficient is real.
-/
import proofs.«407184_j27075473834525_2_alg».proof.Proof.KBlocks
import proofs.«407184_j27075473834525_2_alg».proof.Proof.RefTerm
import proofs.«407184_j27075473834525_2_alg».proof.Proof.Coef

noncomputable section

namespace Cert.LogicLayer

open Idealize.ShloMosaic

/-- The five floats the gate table spells, as the real numbers their words denote. -/
theorem word_zero : Ideal.ofBits .f32 0x00000000#32 = ((0 : ℝ) : EReal) := by
  simp [Ideal.ofBits, Ideal.ieee]
theorem word_one : Ideal.ofBits .f32 0x3F800000#32 = ((1 : ℝ) : EReal) := by
  simp [Ideal.ofBits, Ideal.ieee, -EReal.coe_mul]; norm_num
theorem word_neg_one : Ideal.ofBits .f32 0xBF800000#32 = ((-1 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_neg_two : Ideal.ofBits .f32 0xC0000000#32 = ((-2 : ℝ) : EReal) := by
  simp [Ideal.ofBits, Ideal.ieee, -EReal.coe_mul]; norm_num

/-- Every word of the reference's gate table is one of the five. -/
theorem table_words : ∀ j : Fin 64, Cert.ReferenceIdeal.lit0 j = 0x00000000#32 ∨ Cert.ReferenceIdeal.lit0 j = 0x3F800000#32
    ∨ Cert.ReferenceIdeal.lit0 j = 0xBF800000#32 ∨ Cert.ReferenceIdeal.lit0 j = 0x40000000#32
    ∨ Cert.ReferenceIdeal.lit0 j = 0xC0000000#32 := by
  decide

/-- The two programs' gate tables are one table. -/
theorem tables_agree : ∀ j : Fin 64, Cert.KernelIdeal.lit0 j = Cert.ReferenceIdeal.lit0 j := by
  decide

/-- Every entry of the gate table is a real number. -/
theorem table_real (i : SB.Idx) :
    ∃ r : ℝ, (fun i => FloatOps.ofBits (F := Ideal) .f32 (Cert.ReferenceIdeal.lit0 (Cert.ReferenceIdeal.S16x4.rowMajor i)) : FVec Ideal SB .f32) i = (r : EReal) := by
  show ∃ r : ℝ, Ideal.ofBits .f32 (Cert.ReferenceIdeal.lit0 (Cert.ReferenceIdeal.S16x4.rowMajor i)) = (r : EReal)
  rcases table_words (Cert.ReferenceIdeal.S16x4.rowMajor i) with h | h | h | h | h <;> rw [h]
  · exact ⟨0, word_zero⟩
  · exact ⟨1, word_one⟩
  · exact ⟨-1, word_neg_one⟩
  · exact ⟨2, word_two⟩
  · exact ⟨-2, word_neg_two⟩

/-- The kernel's coefficient chain is the reference's. -/
theorem coef_agree (W : FVec Ideal SW .f32) :
    Cert.KernelIdeal.Blocks.coefK W = Cert.ReferenceIdeal.RefValue.coefR W := by
  unfold Cert.KernelIdeal.Blocks.coefK Cert.ReferenceIdeal.RefValue.coefR
  have hB : (fun i => FloatOps.ofBits (F := Ideal) .f32 (Cert.KernelIdeal.lit0 (Cert.KernelIdeal.S16x4.rowMajor i)) : FVec Ideal SB .f32)
      = fun i => FloatOps.ofBits (F := Ideal) .f32 (Cert.ReferenceIdeal.lit0 (Cert.ReferenceIdeal.S16x4.rowMajor i)) := by
    funext i
    exact congrArg (FloatOps.ofBits (F := Ideal) .f32) (tables_agree _)
  rw [hB]
  rfl

/-- Under a weight table of real numbers every coefficient of the reference's chain is a real number. -/
theorem coefR_real (W : FVec Ideal SW .f32) (hW : ∀ i, ∃ r : ℝ, W i = (r : EReal)) :
    ∀ i, ∃ r : ℝ, Cert.ReferenceIdeal.RefValue.coefR W i = (r : EReal) :=
  coef_real _ _ _ _ _ _ _ W hW table_real

end Cert.LogicLayer

end
-- ==== Proof.KPieces.lean ====
/-
  What one run of the body leaves behind, case by case, as terms of what it read. The grid's third coordinate k
  walks the eight column tiles of the input. At k = 0 the body first zeroes both accumulators and then adds the
  tile's two one-hot products to them; at 0 < k < 7 it adds them to what the step before left; at k = 7 it adds them
  and then writes the output block, the combination of the two finished accumulators with the coefficient rows.
  Each buffer's final contents is its last whole-buffer store, and a load that follows a store of the same buffer
  reads what was stored.
-/
import proofs.«407184_j27075473834525_2_alg».proof.Proof.Gen.KernelIdeal.Frame
import Idealize.ShloMosaic.Lib.Pipeline.Value

set_option maxRecDepth 16384

noncomputable section

namespace Cert.KernelIdeal.Pieces

open Cert.KernelIdeal Cert.KernelIdeal.Gen Idealize.ShloMosaic Idealize.ShloMosaic.TcCoe Idealize.SL.Sem

variable {F : FTy → Type} [FloatOps F]
variable (c : Dev nD) (i : grid0.Coords)
  (arg3 : Memref sig .tc .vmem S512x512 .f32) (harg3 : arg3.IsWhole)
  (arg4 : Memref sig .tc .vmem S1x2048 .i32) (harg4 : arg4.IsWhole)
  (arg5 : Memref sig .tc .vmem S1x2048 .i32) (harg5 : arg5.IsWhole)
  (arg6 : Memref sig .tc .vmem S4x2048 .f32) (harg6 : arg6.IsWhole)
  (arg7 : Memref sig .tc .vmem S512x2048 .f32) (harg7 : arg7.IsWhole)
  (arg8 : Memref sig .tc .vmem S512x2048 .f32) (harg8 : arg8.IsWhole)
  (arg9 : Memref sig .tc .vmem S512x2048 .f32) (harg9 : arg9.IsWhole)
  (x0 : Vec F S512x512 .f32) (x1 x2 : Vec F S1x2048 .i32) (x3 : Vec F S4x2048 .f32)

/-- The rectangles of every load and store here sit at offset zero: the whole buffer. -/
private theorem hz : (![0, 0] : Fin 2 → Nat) = fun _ => 0 := funext fun a => by fin_cases a <;> rfl

/-- First K-step: the first accumulator ends at one step's sum over the zero it was reset to. -/
theorem first_acc0 (hc0 : cond0_0 i) (hc1 : ¬cond0_1 i) :
    sout0_A_0 (F := F) c i arg3 harg3 arg4 harg4 arg5 harg5 arg6 harg6 arg7 harg7 arg8 harg8 arg9 harg9 hc0 hc1 x0 x1 x2 x3 = k0_pay6 i x1 x0 k0_pay3 := by
  unfold sout0_A_0
  rw [View.read_writes_eq_canon _ _ _ (scover0_A_0 c i arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S512x2048) hz, View.readCov_unit_zero (S := S512x2048) _ hz]
  simp only [View.readAt_eq_ld, harg3.read_unread, harg4.read_unread, harg5.read_unread, harg6.read_unread,
    harg7.read_unread, harg8.read_unread, harg9.read_unread, View.ld_unit_zero (S := S512x2048) hz,
    View.ld_unit_zero (S := S512x512) hz, View.ld_unit_zero (S := S1x2048) hz, View.ld_unit_zero (S := S4x2048) hz]

/-- First K-step: the second accumulator likewise. -/
theorem first_acc1 (hc0 : cond0_0 i) (hc1 : ¬cond0_1 i) :
    sout0_A_1 (F := F) c i arg3 harg3 arg4 harg4 arg5 harg5 arg6 harg6 arg7 harg7 arg8 harg8 arg9 harg9 hc0 hc1 x0 x1 x2 x3 = k0_pay1 (k0_pay7 i x2 x0 k0_pay4) := by
  unfold sout0_A_1
  rw [View.read_writes_eq_canon _ _ _ (scover0_A_1 c i arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S512x2048) hz, View.readCov_unit_zero (S := S512x2048) _ hz]
  simp only [View.readAt_eq_ld, harg3.read_unread, harg4.read_unread, harg5.read_unread, harg6.read_unread,
    harg7.read_unread, harg8.read_unread, harg9.read_unread, View.ld_unit_zero (S := S512x2048) hz,
    View.ld_unit_zero (S := S512x512) hz, View.ld_unit_zero (S := S1x2048) hz, View.ld_unit_zero (S := S4x2048) hz]

/-- A middle K-step: the first accumulator ends at one step's sum over what the step before left (`xs0`). -/
theorem mid_acc0 (hc0 : ¬cond0_0 i) (hc1 : ¬cond0_1 i) (xs0 xs1 : Vec F S512x2048 .f32) :
    sout0_B_0 (F := F) c i arg3 harg3 arg4 harg4 arg5 harg5 arg6 harg6 arg7 harg7 arg8 harg8 arg9 harg9 hc0 hc1 x0 x1 x2 x3 xs0 xs1 = k0_pay6 i x1 x0 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero hz]
  simp only [View.readAt_eq_ld, harg3.read_unread, harg4.read_unread, harg5.read_unread, harg6.read_unread,
    harg7.read_unread, harg8.read_unread, harg9.read_unread, View.ld_unit_zero (S := S512x2048) hz,
    View.ld_unit_zero (S := S512x512) hz, View.ld_unit_zero (S := S1x2048) hz, View.ld_unit_zero (S := S4x2048) hz]

theorem mid_acc1 (hc0 : ¬cond0_0 i) (hc1 : ¬cond0_1 i) (xs0 xs1 : Vec F S512x2048 .f32) :
    sout0_B_1 (F := F) c i arg3 harg3 arg4 harg4 arg5 harg5 arg6 harg6 arg7 harg7 arg8 harg8 arg9 harg9 hc0 hc1 x0 x1 x2 x3 xs0 xs1 = k0_pay1 (k0_pay7 i x2 x0 xs1) := by
  unfold sout0_B_1
  rw [View.read_writes_eq_canon _ _ _ (scover0_B_1 c i arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero hz]
  simp only [View.readAt_eq_ld, harg3.read_unread, harg4.read_unread, harg5.read_unread, harg6.read_unread,
    harg7.read_unread, harg8.read_unread, harg9.read_unread, View.ld_unit_zero (S := S512x2048) hz,
    View.ld_unit_zero (S := S512x512) hz, View.ld_unit_zero (S := S1x2048) hz, View.ld_unit_zero (S := S4x2048) hz]

/-- The last K-step: the accumulators as in a middle step … -/
theorem last_acc0 (hc0 : ¬cond0_0 i) (hc1 : cond0_1 i) (xs0 xs1 : Vec F S512x2048 .f32) :
    sout0_C_0 (F := F) c i arg3 harg3 arg4 harg4 arg5 harg5 arg6 harg6 arg7 harg7 arg8 harg8 arg9 harg9 hc0 hc1 x0 x1 x2 x3 xs0 xs1 = k0_pay6 i x1 x0 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz]
  simp only [View.readAt_eq_ld, harg3.read_unread, harg4.read_unread, harg5.read_unread, harg6.read_unread,
    harg7.read_unread, harg8.read_unread, harg9.read_unread, View.ld_unit_zero (S := S512x2048) hz,
    View.ld_unit_zero (S := S512x512) hz, View.ld_unit_zero (S := S1x2048) hz, View.ld_unit_zero (S := S4x2048) hz]

theorem last_acc1 (hc0 : ¬cond0_0 i) (hc1 : cond0_1 i) (xs0 xs1 : Vec F S512x2048 .f32) :
    sout0_C_1 (F := F) c i arg3 harg3 arg4 harg4 arg5 harg5 arg6 harg6 arg7 harg7 arg8 harg8 arg9 harg9 hc0 hc1 x0 x1 x2 x3 xs0 xs1 = k0_pay1 (k0_pay7 i x2 x0 xs1) := by
  unfold sout0_C_1
  rw [View.read_writes_eq_canon _ _ _ (scover0_C_1 c i arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz]
  simp only [View.readAt_eq_ld, harg3.read_unread, harg4.read_unread, harg5.read_unread, harg6.read_unread,
    harg7.read_unread, harg8.read_unread, harg9.read_unread, View.ld_unit_zero (S := S512x2048) hz,
    View.ld_unit_zero (S := S512x512) hz, View.ld_unit_zero (S := S1x2048) hz, View.ld_unit_zero (S := S4x2048) hz]

/-- … and the output block: the combination of the two finished accumulators with the coefficient rows `x3`. -/
theorem last_out (hc0 : ¬cond0_0 i) (hc1 : cond0_1 i) (xs0 xs1 : Vec F S512x2048 .f32) :
    out0_C_4 (F := F) c i arg3 harg3 arg4 harg4 arg5 harg5 arg6 harg6 arg7 harg7 arg8 harg8 arg9 harg9 hc0 hc1 x0 x1 x2 x3 xs0 xs1
      = k0_pay2 (k0_pay6 i x1 x0 xs0) (k0_pay1 (k0_pay7 i x2 x0 xs1)) x3 := by
  unfold out0_C_4
  rw [View.read_writes_eq_canon _ _ _ (cover0_C_4 c i arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz]
  simp only [View.readAt_eq_ld, harg3.read_unread, harg4.read_unread, harg5.read_unread, harg6.read_unread,
    harg7.read_unread, harg8.read_unread, harg9.read_unread, View.ld_unit_zero (S := S512x2048) hz,
    View.ld_unit_zero (S := S512x512) hz, View.ld_unit_zero (S := S1x2048) hz, View.ld_unit_zero (S := S4x2048) hz,
    View.readCov_unit_zero (S := S512x2048) _ hz]

end Cert.KernelIdeal.Pieces

end
-- ==== Proof.OneHot.lean ====
/-
  The gather as a sum of one-hot products. The kernel walks the 4096 columns of the input in eight tiles of 512.
  In tile k, row r of the selector for an index word v is 1 exactly when r = v − 512·k as 32-bit words, so the
  tile contributes Σ_r g(512·k + r) · [r = v − 512·k]. For a word in range exactly one tile and one row match,
  the row and tile of v's own value, and the eight contributions add up to g(v): every other term is a product
  with zero.
-/
import Idealize.ShloMosaic.PureOps.Ideal
import proofs.«407184_j27075473834525_2_alg».proof.Proof.Spec

noncomputable section

open scoped BigOperators

namespace Cert.LogicLayer

open Idealize.ShloMosaic

/-- The selector's entry at row `r` of tile `k` for the index word `v`: one when the row's number equals
    `v − 512·k` as 32-bit words, else zero. -/
def hot (r : Fin 512) (v : BitVec 32) (k : ℕ) : EReal :=
  if BitVec.ofNat 32 r.val = v - BitVec.ofNat 32 k * 512#32 then 1 else 0

/-- Tile `k`'s contribution to the gather of `g` at the word `v` (the tile number is read modulo 8, which changes
    nothing for the eight tiles). -/
def tileSum (g : Fin 4096 → EReal) (v : BitVec 32) (k : ℕ) : EReal :=
  ∑ r : Fin 512, g ⟨512 * (k % 8) + r.val, by have := r.isLt; have := Nat.mod_lt k (show 0 < 8 by norm_num); omega⟩ * hot r v k

/-- For a word below 4096, a tile below 8 and a row below 512, the word equation `r = v − 512·k` is the equation
    `r + 512·k = v` of natural numbers: neither side reaches 2^32, so nothing wraps. -/
private theorem word_eq_iff (r : Fin 512) (v : BitVec 32) (k : ℕ) (hv : v.toNat < 4096) (hk : k < 8) :
    (BitVec.ofNat 32 r.val = v - BitVec.ofNat 32 k * 512#32) ↔ r.val + 512 * k = v.toNat := by
  have hr := r.isLt
  constructor
  · intro h
    have h' := congrArg BitVec.toNat h
    simp only [BitVec.toNat_sub, BitVec.toNat_mul, BitVec.toNat_ofNat] at h'
    omega
  · intro h
    apply BitVec.eq_of_toNat_eq
    simp only [BitVec.toNat_sub, BitVec.toNat_mul, BitVec.toNat_ofNat]
    omega

/-- The selector's entry, read on natural numbers. -/
private theorem hot_eq (r : Fin 512) (v : BitVec 32) (k : ℕ) (hv : v.toNat < 4096) (hk : k < 8) :
    hot r v k = if r.val + 512 * k = v.toNat then 1 else 0 := by
  unfold hot
  simp only [word_eq_iff r v k hv hk]

/-- The eight tiles' contributions add up to the entry the word names. -/
theorem tileSum_total (g : Fin 4096 → EReal) (v : BitVec 32) (hv : InRange v) :
    ∑ k ∈ Finset.range 8, tileSum g v k = g (col v) := by
  have hn : v.toNat < 4096 := hv.toNat_lt
  -- Only the tile of the word's own value, number v / 512, contributes.
  rw [Finset.sum_eq_single (v.toNat / 512)]
  · -- In that tile only the row v mod 512 contributes, and it contributes g at column 512·(v / 512) + v mod 512 = v.
    unfold tileSum
    rw [Finset.sum_eq_single (⟨v.toNat % 512, Nat.mod_lt _ (by norm_num)⟩ : Fin 512)]
    · rw [hot_eq _ _ _ hn (by omega), if_pos (by show v.toNat % 512 + 512 * (v.toNat / 512) = v.toNat; omega), mul_one]
      congr 1
      apply Fin.ext
      rw [col_val hv]
      show 512 * (v.toNat / 512 % 8) + v.toNat % 512 = v.toNat
      omega
    · intro r _ hr
      rw [hot_eq _ _ _ hn (by omega), if_neg, mul_zero]
      intro h
      apply hr
      apply Fin.ext
      show r.val = v.toNat % 512
      omega
    · intro h
      exact absurd (Finset.mem_univ _) h
  · -- Every other tile is a sum of products with zero.
    intro k hk hne
    have hk8 : k < 8 := Finset.mem_range.mp hk
    unfold tileSum
    apply Finset.sum_eq_zero
    intro r _
    have hr := r.isLt
    rw [hot_eq _ _ _ hn hk8, if_neg (by omega), mul_zero]
  · intro h
    exfalso
    apply h
    rw [Finset.mem_range]
    omega

end Cert.LogicLayer

end
-- ==== Proof.KPayload.lean ====
/-
  The body's arithmetic, entry by entry, on the extended reals. One K-step adds to an accumulator entry (p, q) the
  product of row p of the input tile with column q of the step's selector,
      acc'[p, q] = acc[p, q] + Σ_r x[p, r] · [r = v_q − 512·k],
  v_q the index word of channel q (a change of float format is the identity on the extended reals, and a matrix
  product into a zero accumulator is the plain sum of products). The last step combines the two accumulators with the
  four coefficient rows,
      o[p, q] = (c₀[q] + c₂[q]·b[p, q]) + a[p, q]·(c₁[q] + c₃[q]·b[p, q]).
-/
import proofs.«407184_j27075473834525_2_alg».proof.Proof.Gen.KernelIdeal.Skeleton
import proofs.«407184_j27075473834525_2_alg».proof.Proof.OneHot
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Payload

open Cert.KernelIdeal Cert.KernelIdeal.Gen Idealize.ShloMosaic Idealize.ShloMosaic.ValueIdx Cert.LogicLayer

/-! ### The selector's entry -/

/-- A comparison bit widened to 32 bits and read as a signed integer is 1 where the two words agree and 0 elsewhere. -/
private theorem sel_word (a b : BitVec 32) :
    FloatOps.sitofp (F := Ideal) .f32 ((IntOp.cmpi .eq a b).setWidth 32) = (if a = b then 1 else 0 : EReal) := by
  show ((((IntOp.cmpi .eq a b).setWidth 32).toInt : ℝ) : EReal) = _
  by_cases h : a = b
  · have hb : IntOp.cmpi .eq a b = 1#1 := by simp [IntOp.cmpi, h]
    have h1 : ((1#1 : BitVec 1).setWidth 32).toInt = 1 := by decide
    rw [if_pos h, hb, h1]
    norm_num
  · have hb : IntOp.cmpi .eq a b = 0#1 := by
      have hf : (a == b) = false := beq_eq_false_iff_ne.mpr h
      simp [IntOp.cmpi, hf]
    have h0 : ((0#1 : BitVec 1).setWidth 32).toInt = 0 := by decide
    rw [if_neg h, hb, h0]
    norm_num

/-- Row r, column q of tile k's selector: the row's number against the channel's index word less 512·k. -/
private theorem sel_apply (k : ℕ) (v : Vec Ideal S1x2048 .i32) (hi : S512x2048.Iotas .tc 32 [0])
    (hs : S1x2048.ShapeCasts S1x2048) (hb : S1x2048.Broadcasts S512x2048) (hn : 1 < 32)
    (hf : FTy.bits .bf16 < FTy.bits .f32) (r : Fin 512) (q : Fin 2048) :
    (truncf .bf16 (sitofp (F := Ideal) .f32 (extui 32 (cmpi .eq (iota .tc S512x2048 32 [0] hi)
        (broadcastTo S512x2048 (subi (shapeCast S1x2048 v hs)
          (broadcast S1x2048 (Scalar.muli (BitVec.ofNat 32 k) 512#32))) hb)) hn)) hf
      : FVec Ideal S512x2048 .bf16) (ix2 r q) = hot r (v (ix2 (0 : Fin 1) q)) k := by
  have h1 : iota .tc S512x2048 32 [0] hi (ix2 r q) = BitVec.ofNat 32 r.val := iota_single_apply _ _ _ _ _ _
  have h2 : broadcastTo S512x2048 (subi (shapeCast S1x2048 v hs)
      (broadcast S1x2048 (Scalar.muli (BitVec.ofNat 32 k) 512#32))) hb (ix2 r q)
      = (subi (shapeCast S1x2048 v hs) (broadcast S1x2048 (Scalar.muli (BitVec.ofNat 32 k) 512#32))) (ix2 (0 : Fin 1) q) :=
    broadcastTo_1b_ab_apply _ _ _ _
  have h3 : shapeCast S1x2048 v hs = v := shapeCast_self _ _
  show FloatOps.sitofp (F := Ideal) .f32 ((IntOp.cmpi .eq (iota .tc S512x2048 32 [0] hi (ix2 r q))
      (broadcastTo S512x2048 (subi (shapeCast S1x2048 v hs)
        (broadcast S1x2048 (Scalar.muli (BitVec.ofNat 32 k) 512#32))) hb (ix2 r q))).setWidth 32) = _
  rw [h1, h2, h3, sel_word]
  rfl

/-! ### The product's index maps, coordinate by coordinate -/

private theorem lhs_0 (j : S512x2048.Idx) (k : dot_S512x512_S512x2048_S512x2048_1_0_0_1_n_n.contr.Idx) :
    (dot_S512x512_S512x2048_S512x2048_1_0_0_1_n_n.lhsIdx j k 0 : ℕ) = j 0 := by
  simp [DotDims.lhsIdx, dot_S512x512_S512x2048_S512x2048_1_0_0_1_n_n]; rfl
private theorem lhs_1 (j : S512x2048.Idx) (k : dot_S512x512_S512x2048_S512x2048_1_0_0_1_n_n.contr.Idx) :
    (dot_S512x512_S512x2048_S512x2048_1_0_0_1_n_n.lhsIdx j k 1 : ℕ) = k ⟨0, by decide⟩ :=
  DotDims.lhsIdx_val_of_single _ (cl := 1) rfl j k
private theorem rhs_0 (j : S512x2048.Idx) (k : dot_S512x512_S512x2048_S512x2048_1_0_0_1_n_n.contr.Idx) :
    (dot_S512x512_S512x2048_S512x2048_1_0_0_1_n_n.rhsIdx j k 0 : ℕ) = k ⟨0, by decide⟩ :=
  DotDims.rhsIdx_val_of_single _ (cr := 0) rfl j k
private theorem rhs_1 (j : S512x2048.Idx) (k : dot_S512x512_S512x2048_S512x2048_1_0_0_1_n_n.contr.Idx) :
    (dot_S512x512_S512x2048_S512x2048_1_0_0_1_n_n.rhsIdx j k 1 : ℕ) = j 1 := by
  simp [DotDims.rhsIdx, dot_S512x512_S512x2048_S512x2048_1_0_0_1_n_n]; rfl

/-- The matrix product into the zero accumulator at entry (p, q): the sum over the 512 contracted positions. -/
private theorem mm_apply (A : FVec Ideal S512x512 .bf16) (B : FVec Ideal S512x2048 .bf16) (p : Fin 512) (q : Fin 2048) :
    matmul dot_S512x512_S512x2048_S512x2048_1_0_0_1_n_n none A B (constant (F := Ideal) S512x2048 .f32 0x00000000#32) (ix2 p q)
      = ∑ r : Fin 512, A (ix2 p r) * B (ix2 r q) := by
  refine (Ideal.matmul_constant_zero_apply dot_S512x512_S512x2048_S512x2048_1_0_0_1_n_n none A B (ix2 p q)).trans ?_
  rw [← Equiv.sum_comp (contrEquiv1 dot_S512x512_S512x2048_S512x2048_1_0_0_1_n_n 512 rfl rfl).symm]
  refine Finset.sum_congr rfl fun r _ => ?_
  have hl : dot_S512x512_S512x2048_S512x2048_1_0_0_1_n_n.lhsIdx (ix2 p q)
      ((contrEquiv1 dot_S512x512_S512x2048_S512x2048_1_0_0_1_n_n 512 rfl rfl).symm r) = ix2 p r :=
    funext fun a => Fin.ext (by
      match a with
      | ⟨0, _⟩ => exact lhs_0 _ _
      | ⟨1, _⟩ => exact (lhs_1 _ _).trans (contrEquiv1_symm_val _ 512 rfl rfl r))
  have hr : dot_S512x512_S512x2048_S512x2048_1_0_0_1_n_n.rhsIdx (ix2 p q)
      ((contrEquiv1 dot_S512x512_S512x2048_S512x2048_1_0_0_1_n_n 512 rfl rfl).symm r) = ix2 r q :=
    funext fun a => Fin.ext (by
      match a with
      | ⟨0, _⟩ => exact (rhs_0 _ _).trans (contrEquiv1_symm_val _ 512 rfl rfl r)
      | ⟨1, _⟩ => exact rhs_1 _ _)
  rw [hl, hr]

/-- One K-step at entry (p, q), for either accumulator. -/
private theorem step_apply (k : ℕ) (v : Vec Ideal S1x2048 .i32) (x : Vec Ideal S512x512 .f32)
    (acc : Vec Ideal S512x2048 .f32) (hi : S512x2048.Iotas .tc 32 [0])
    (hs : S1x2048.ShapeCasts S1x2048) (hb : S1x2048.Broadcasts S512x2048) (hn : 1 < 32)
    (hf : FTy.bits .bf16 < FTy.bits .f32) (p : Fin 512) (q : Fin 2048) :
    addf (F := Ideal) acc (matmul dot_S512x512_S512x2048_S512x2048_1_0_0_1_n_n none (truncf .bf16 x hf)
        (truncf .bf16 (sitofp (F := Ideal) .f32 (extui 32 (cmpi .eq (iota .tc S512x2048 32 [0] hi)
          (broadcastTo S512x2048 (subi (shapeCast S1x2048 v hs)
            (broadcast S1x2048 (Scalar.muli (BitVec.ofNat 32 k) 512#32))) hb)) hn)) hf)
        (constant (F := Ideal) S512x2048 .f32 0x00000000#32)) (ix2 p q)
      = (acc (ix2 p q) : EReal) + ∑ r : Fin 512, (x (ix2 p r) : EReal) * hot r (v (ix2 (0 : Fin 1) q)) k := by
  refine (addf_apply _ _ _).trans ?_
  refine congrArg (fun t : EReal => (acc (ix2 p q) : EReal) + t) ?_
  refine (mm_apply _ _ p q).trans ?_
  refine Finset.sum_congr rfl fun r _ => ?_
  rw [sel_apply k v hi hs hb hn hf r q]
  rfl

/-- The reset value of an accumulator: zero everywhere. -/
theorem pay3_apply (y : S512x2048.Idx) : k0_pay3 (F := Ideal) y = (0 : EReal) := by
  unfold k0_pay3
  rw [shapeCast_self]
  exact Ideal.ofBits_zero_f32

theorem pay4_apply (y : S512x2048.Idx) : k0_pay4 (F := Ideal) y = (0 : EReal) := by
  unfold k0_pay4
  rw [shapeCast_self]
  exact Ideal.ofBits_zero_f32

/-- A reshape to the same shape changes nothing. -/
theorem pay1_apply (v33 : FVec Ideal S512x2048 .f32) (y : S512x2048.Idx) : k0_pay1 (F := Ideal) v33 y = v33 y := by
  unfold k0_pay1
  rw [shapeCast_self]

/-- One K-step of the first accumulator at entry (p, q). -/
theorem pay6_apply (i : grid0.Coords) (v5 : Vec Ideal S1x2048 .i32) (v23 : Vec Ideal S512x512 .f32)
    (v25 : Vec Ideal S512x2048 .f32) (p : Fin 512) (q : Fin 2048) :
    k0_pay6 (F := Ideal) i v5 v23 v25 (ix2 p q)
      = (v25 (ix2 p q) : EReal) + ∑ r : Fin 512, (v23 (ix2 p r) : EReal) * hot r (v5 (ix2 (0 : Fin 1) q)) (i 2).val := by
  unfold k0_pay6 k0_pay5
  rw [shapeCast_self]
  exact step_apply (i 2).val v5 v23 v25 _ _ _ _ _ p q

/-- One K-step of the second accumulator at entry (p, q). -/
theorem pay7_apply (i : grid0.Coords) (v9 : Vec Ideal S1x2048 .i32) (v23 : Vec Ideal S512x512 .f32)
    (v31 : Vec Ideal S512x2048 .f32) (p : Fin 512) (q : Fin 2048) :
    k0_pay7 (F := Ideal) i v9 v23 v31 (ix2 p q)
      = (v31 (ix2 p q) : EReal) + ∑ r : Fin 512, (v23 (ix2 p r) : EReal) * hot r (v9 (ix2 (0 : Fin 1) q)) (i 2).val := by
  unfold k0_pay7 k0_pay5
  exact step_apply (i 2).val v9 v23 v31 _ _ _ _ _ p q

/-- A row of the coefficient block spread over the 512 rows, at entry (p, q): the block's entry (c, q). -/
private theorem coef_apply (w : FVec Ideal S4x2048 .f32) (o : ℕ) (c : Fin 4) (hc : c.val = o)
    (hsl : S4x2048.Slices ![o, 0] S1x2048) (hb : S1x2048.Broadcasts S512x2048) (p : Fin 512) (q : Fin 2048) :
    broadcastTo S512x2048 (extractStridedSlice S1x2048 ![o, 0] w hsl) hb (ix2 p q) = w (ix2 c q) := by
  refine (broadcastTo_1b_ab_apply _ hb p q).trans ?_
  exact slice2_axis0_apply o w hsl (0 : Fin 1) q c (by rw [hc]; rfl)

/-- The final combination at entry (p, q): `v40` and `v41` the two accumulators, `v42` the four coefficient rows. -/
theorem pay2_apply (v40 v41 : Vec Ideal S512x2048 .f32) (v42 : Vec Ideal S4x2048 .f32) (p : Fin 512) (q : Fin 2048) :
    k0_pay2 (F := Ideal) v40 v41 v42 (ix2 p q)
      = ((v42 (ix2 (0 : Fin 4) q) : EReal) + (v42 (ix2 (2 : Fin 4) q) : EReal) * (v41 (ix2 p q) : EReal))
        + (v40 (ix2 p q) : EReal) * ((v42 (ix2 (1 : Fin 4) q) : EReal) + (v42 (ix2 (3 : Fin 4) q) : EReal) * (v41 (ix2 p q) : EReal)) := by
  unfold k0_pay2
  rw [shapeCast_self]
  simp only [addf_apply, mulf_apply]
  rw [coef_apply v42 0 (0 : Fin 4) rfl _ _ p q, coef_apply v42 1 (1 : Fin 4) rfl _ _ p q,
    coef_apply v42 2 (2 : Fin 4) rfl _ _ p q, coef_apply v42 3 (3 : Fin 4) rfl _ _ p q]

end Cert.KernelIdeal.Payload

end
-- ==== Proof.KAccum.lean ====
/-
  The two accumulators, point by point. Points are numbered t = 64·i + 8·j + k, the K-step k innermost, so the eight
  points of one output block are consecutive and the run of a block starts at a point with k = 0, where the body
  resets the accumulators. After point t the first accumulator's entry (p, q) is the sum of the contributions of the
  tiles 0 … k to the gather of row 512·i + p of the input at the first index word of channel 2048·j + q; the
  second accumulator the same at the second index word. By induction on t: at k = 0 the entry is zero plus tile 0's
  contribution, and at k > 0 it is what point t − 1 (same i and j, K-step k − 1) left plus tile k's.
-/
import proofs.«407184_j27075473834525_2_alg».proof.Proof.Gen.KernelIdeal.Frame
import proofs.«407184_j27075473834525_2_alg».proof.Proof.KPieces
import proofs.«407184_j27075473834525_2_alg».proof.Proof.KPayload
import proofs.«407184_j27075473834525_2_alg».proof.Proof.KBlocks
import proofs.«407184_j27075473834525_2_alg».proof.Proof.OneHot

set_option maxRecDepth 16384

noncomputable section

open scoped BigOperators

namespace Cert.KernelIdeal.Accum

open Cert.KernelIdeal Cert.KernelIdeal.Gen Idealize.ShloMosaic Idealize.ShloMosaic.TcCoe Idealize.SL.Sem
open Idealize.ShloMosaic.ValueIdx Cert.LogicLayer Cert.KernelIdeal.Blocks

variable (m : (ℓ : Loc nD τ sig) → Buf (Elt Ideal) ℓ)

/-- Row 512·i + p of the input matrix, as a function of the column (i the first grid coordinate of point `n`). -/
def rowOf (c : Dev nD) (n : ℕ) (hn : n < 512) (p : Fin 512) : Fin 4096 → EReal := fun j =>
  Xa m c (ix2 (⟨512 * (n / 64) + p.val, by have := p.isLt; omega⟩ : Fin 4096) j)

/-- Index word `s` of channel 2048·j + q (j the second grid coordinate of point `n`). -/
def wordOf (c : Dev nD) (n : ℕ) (hn : n < 512) (s : Fin 2) (q : Fin 2048) : BitVec 32 :=
  Ia m c (ix2 (⟨2048 * (n / 8 % 8) + q.val, by have := q.isLt; omega⟩ : Fin 16384) s)

/-- At a point that does not start a block the point before lies in the same row block … -/
private theorem rowOf_pred (c : Dev nD) (n : ℕ) (hn : n < 512) (hn' : n - 1 < 512) (h0 : ¬ n % 8 = 0) (p : Fin 512) :
    rowOf m c (n - 1) hn' p = rowOf m c n hn p := by
  have e : (n - 1) / 64 = n / 64 := by omega
  funext j
  unfold rowOf
  exact congrArg (fun a : Fin 4096 => Xa m c (ix2 a j))
    (Fin.ext (by show 512 * ((n - 1) / 64) + p.val = 512 * (n / 64) + p.val; rw [e]))

/-- … and in the same channel block. -/
private theorem wordOf_pred (c : Dev nD) (n : ℕ) (hn : n < 512) (hn' : n - 1 < 512) (h0 : ¬ n % 8 = 0) (s : Fin 2)
    (q : Fin 2048) : wordOf m c (n - 1) hn' s q = wordOf m c n hn s q := by
  have e : (n - 1) / 8 % 8 = n / 8 % 8 := by omega
  unfold wordOf
  exact congrArg (fun a : Fin 16384 => Ia m c (ix2 a s))
    (Fin.ext (by show 2048 * ((n - 1) / 8 % 8) + q.val = 2048 * (n / 8 % 8) + q.val; rw [e]))

/-- The one-hot product of the input tile at point t with the selector of a word v is tile k's contribution to the
    gather of row 512·i + p at v (k = t mod 8 the K-step of the point). -/
private theorem tile_eq (c : Dev nD) (t : Fin cfg0.N) (ht : t.val < 512) (p : Fin 512) (v : BitVec 32) :
    ∑ r : Fin 512, (xblk m c t (ix2 p r) : EReal) * hot r v ((grid0.coords t) 2).val
      = tileSum (rowOf m c t.val ht p) v (t.val % 8) := by
  unfold tileSum
  refine Finset.sum_congr rfl fun r _ => ?_
  rw [coord_k t, xblk_apply m c t ht p r]
  unfold rowOf
  refine congrArg (fun a : Fin 4096 => (Xa m c (ix2 (⟨512 * (t.val / 64) + p.val, by have := p.isLt; omega⟩ : Fin 4096) a) : EReal)
      * hot r v (t.val % 8)) (Fin.ext ?_)
  show 512 * (t.val % 8) + r.val = 512 * (t.val % 8 % 8) + r.val
  rw [Nat.mod_mod]

/-- One K-step of the first accumulator over any previous contents xs. -/
private theorem step0 (c : Dev nD) (t : Fin cfg0.N) (ht : t.val < 512) (xs : Vec Ideal S512x2048 .f32) (p : Fin 512)
    (q : Fin 2048) :
    k0_pay6 (F := Ideal) (grid0.coords t) (i0blk m c t) (xblk m c t) xs (ix2 p q)
      = (xs (ix2 p q) : EReal) + tileSum (rowOf m c t.val ht p) (wordOf m c t.val ht 0 q) (t.val % 8) := by
  refine (Payload.pay6_apply (grid0.coords t) (i0blk m c t) (xblk m c t) xs p q).trans ?_
  rw [i0blk_apply m c t ht q]
  exact congrArg (fun z : EReal => (xs (ix2 p q) : EReal) + z) (tile_eq m c t ht p _)

/-- One K-step of the second accumulator over any previous contents xs. -/
private theorem step1 (c : Dev nD) (t : Fin cfg0.N) (ht : t.val < 512) (xs : Vec Ideal S512x2048 .f32) (p : Fin 512)
    (q : Fin 2048) :
    k0_pay1 (F := Ideal) (k0_pay7 (F := Ideal) (grid0.coords t) (i1blk m c t) (xblk m c t) xs) (ix2 p q)
      = (xs (ix2 p q) : EReal) + tileSum (rowOf m c t.val ht p) (wordOf m c t.val ht 1 q) (t.val % 8) := by
  refine (Payload.pay1_apply _ (ix2 p q)).trans ?_
  refine (Payload.pay7_apply (grid0.coords t) (i1blk m c t) (xblk m c t) xs p q).trans ?_
  rw [i1blk_apply m c t ht q]
  exact congrArg (fun z : EReal => (xs (ix2 p q) : EReal) + z) (tile_eq m c t ht p _)

private theorem acc0_aux (c : Dev nD) (p : Fin 512) (q : Fin 2048) : ∀ (n : ℕ) (hn : n < cfg0.N) (ht : n < 512),
    ((outsAt0 m c n hn).2.1 (ix2 p q) : EReal)
      = ∑ k ∈ Finset.range (n % 8 + 1), tileSum (rowOf m c n ht p) (wordOf m c n ht 0 q) k := by
  intro n
  induction n using Nat.strong_induction_on with
  | _ n ih =>
    intro hn ht
    by_cases h0 : n % 8 = 0
    · -- K-step 0: the accumulator is reset, so the entry is zero plus tile 0's contribution.
      have h1 : ¬ n % 8 = 7 := by omega
      rw [outsAt0_A m c ⟨n, hn⟩ h0 h1]; dsimp only
      refine (congrFun (Pieces.first_acc0 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) scM0_1 (Memref.isWhole_whole _) (xblk m c ⟨n, hn⟩) (i0blk m c ⟨n, hn⟩) (i1blk m c ⟨n, hn⟩) (cblk m c ⟨n, hn⟩) ((hcond0_0 ⟨n, hn⟩).mpr h0) (fun h => h1 ((hcond0_1 ⟨n, hn⟩).mp h))) (ix2 p q)).trans ?_
      refine (step0 m c ⟨n, hn⟩ ht _ p q).trans ?_
      rw [Payload.pay3_apply, zero_add]
      show tileSum (rowOf m c n ht p) (wordOf m c n ht 0 q) (n % 8) = _
      rw [h0, Finset.sum_range_one]
    · -- K-step k > 0: what point n − 1 left (same block, K-step k − 1) plus tile k's contribution.
      have hp : n - 1 < cfg0.N := Nat.lt_of_le_of_lt (Nat.sub_le _ _) hn
      have hp' : n - 1 < 512 := by omega
      have hprev := ih (n - 1) (by omega) hp hp'
      rw [rowOf_pred m c n ht hp' h0 p, wordOf_pred m c n ht hp' h0 0 q, (by omega : (n - 1) % 8 + 1 = n % 8)] at hprev
      by_cases h1 : n % 8 = 7
      · rw [outsAt0_C m c ⟨n, hn⟩ h0 h1]; dsimp only
        refine (congrFun (Pieces.last_acc0 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) scM0_1 (Memref.isWhole_whole _) (xblk m c ⟨n, hn⟩) (i0blk m c ⟨n, hn⟩) (i1blk m c ⟨n, hn⟩) (cblk m c ⟨n, hn⟩) (fun h => h0 ((hcond0_0 ⟨n, hn⟩).mp h)) ((hcond0_1 ⟨n, hn⟩).mpr h1) (outsAt0 m c (n - 1) hp).2.1 (outsAt0 m c (n - 1) hp).2.2) (ix2 p q)).trans ?_
        refine (step0 m c ⟨n, hn⟩ ht _ p q).trans ?_
        rw [hprev, Finset.sum_range_succ]
      · rw [outsAt0_B m c ⟨n, hn⟩ h0 h1]; dsimp only
        refine (congrFun (Pieces.mid_acc0 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) scM0_1 (Memref.isWhole_whole _) (xblk m c ⟨n, hn⟩) (i0blk m c ⟨n, hn⟩) (i1blk m c ⟨n, hn⟩) (cblk m c ⟨n, hn⟩) (fun h => h0 ((hcond0_0 ⟨n, hn⟩).mp h)) (fun h => h1 ((hcond0_1 ⟨n, hn⟩).mp h)) (outsAt0 m c (n - 1) hp).2.1 (outsAt0 m c (n - 1) hp).2.2) (ix2 p q)).trans ?_
        refine (step0 m c ⟨n, hn⟩ ht _ p q).trans ?_
        rw [hprev, Finset.sum_range_succ]

private theorem acc1_aux (c : Dev nD) (p : Fin 512) (q : Fin 2048) : ∀ (n : ℕ) (hn : n < cfg0.N) (ht : n < 512),
    ((outsAt0 m c n hn).2.2 (ix2 p q) : EReal)
      = ∑ k ∈ Finset.range (n % 8 + 1), tileSum (rowOf m c n ht p) (wordOf m c n ht 1 q) k := by
  intro n
  induction n using Nat.strong_induction_on with
  | _ n ih =>
    intro hn ht
    by_cases h0 : n % 8 = 0
    · -- K-step 0: the accumulator is reset, so the entry is zero plus tile 0's contribution.
      have h1 : ¬ n % 8 = 7 := by omega
      rw [outsAt0_A m c ⟨n, hn⟩ h0 h1]; dsimp only
      refine (congrFun (Pieces.first_acc1 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) scM0_1 (Memref.isWhole_whole _) (xblk m c ⟨n, hn⟩) (i0blk m c ⟨n, hn⟩) (i1blk m c ⟨n, hn⟩) (cblk m c ⟨n, hn⟩) ((hcond0_0 ⟨n, hn⟩).mpr h0) (fun h => h1 ((hcond0_1 ⟨n, hn⟩).mp h))) (ix2 p q)).trans ?_
      refine (step1 m c ⟨n, hn⟩ ht _ p q).trans ?_
      rw [Payload.pay4_apply, zero_add]
      show tileSum (rowOf m c n ht p) (wordOf m c n ht 1 q) (n % 8) = _
      rw [h0, Finset.sum_range_one]
    · -- K-step k > 0: what point n − 1 left (same block, K-step k − 1) plus tile k's contribution.
      have hp : n - 1 < cfg0.N := Nat.lt_of_le_of_lt (Nat.sub_le _ _) hn
      have hp' : n - 1 < 512 := by omega
      have hprev := ih (n - 1) (by omega) hp hp'
      rw [rowOf_pred m c n ht hp' h0 p, wordOf_pred m c n ht hp' h0 1 q, (by omega : (n - 1) % 8 + 1 = n % 8)] at hprev
      by_cases h1 : n % 8 = 7
      · rw [outsAt0_C m c ⟨n, hn⟩ h0 h1]; dsimp only
        refine (congrFun (Pieces.last_acc1 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) scM0_1 (Memref.isWhole_whole _) (xblk m c ⟨n, hn⟩) (i0blk m c ⟨n, hn⟩) (i1blk m c ⟨n, hn⟩) (cblk m c ⟨n, hn⟩) (fun h => h0 ((hcond0_0 ⟨n, hn⟩).mp h)) ((hcond0_1 ⟨n, hn⟩).mpr h1) (outsAt0 m c (n - 1) hp).2.1 (outsAt0 m c (n - 1) hp).2.2) (ix2 p q)).trans ?_
        refine (step1 m c ⟨n, hn⟩ ht _ p q).trans ?_
        rw [hprev, Finset.sum_range_succ]
      · rw [outsAt0_B m c ⟨n, hn⟩ h0 h1]; dsimp only
        refine (congrFun (Pieces.mid_acc1 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) scM0_1 (Memref.isWhole_whole _) (xblk m c ⟨n, hn⟩) (i0blk m c ⟨n, hn⟩) (i1blk m c ⟨n, hn⟩) (cblk m c ⟨n, hn⟩) (fun h => h0 ((hcond0_0 ⟨n, hn⟩).mp h)) (fun h => h1 ((hcond0_1 ⟨n, hn⟩).mp h)) (outsAt0 m c (n - 1) hp).2.1 (outsAt0 m c (n - 1) hp).2.2) (ix2 p q)).trans ?_
        refine (step1 m c ⟨n, hn⟩ ht _ p q).trans ?_
        rw [hprev, Finset.sum_range_succ]

/-- After point t the first accumulator holds the contributions of tiles 0 … k. -/
theorem acc0_after (c : Dev nD) (t : Fin cfg0.N) (ht : t.val < 512) (p : Fin 512) (q : Fin 2048) :
    ((outsAt0 m c t.val t.isLt).2.1 (ix2 p q) : EReal)
      = ∑ k ∈ Finset.range (t.val % 8 + 1), tileSum (rowOf m c t.val ht p) (wordOf m c t.val ht 0 q) k :=
  acc0_aux m c p q t.val t.isLt ht

/-- After point t the second accumulator holds the contributions of tiles 0 … k, at the second index word. -/
theorem acc1_after (c : Dev nD) (t : Fin cfg0.N) (ht : t.val < 512) (p : Fin 512) (q : Fin 2048) :
    ((outsAt0 m c t.val t.isLt).2.2 (ix2 p q) : EReal)
      = ∑ k ∈ Finset.range (t.val % 8 + 1), tileSum (rowOf m c t.val ht p) (wordOf m c t.val ht 1 q) k :=
  acc1_aux m c p q t.val t.isLt ht

end Cert.KernelIdeal.Accum

end
-- ==== Proof.KFinal.lean ====
/-
  The kernel's result array. Output block (i, j) is written back once, at the point with K-step 7, after the body
  has combined the finished accumulators: by then each accumulator entry is the sum of all eight tiles'
  contributions, which for an index word in range is the gathered input entry itself, so the block is the
  restriction of the specification to rows 512·i … and channels 2048·j …. The 64 blocks (i, j) tile the result,
  each entry (M, N) lying in block (M / 512, N / 2048), so the whole array is the specification.
-/
import proofs.«407184_j27075473834525_2_alg».proof.Proof.Gen.KernelIdeal.Value
import proofs.«407184_j27075473834525_2_alg».proof.Proof.KAccum

set_option maxRecDepth 16384

noncomputable section

open scoped BigOperators

namespace Cert.KernelIdeal.Final

open Cert.KernelIdeal Cert.KernelIdeal.Gen Idealize.ShloMosaic Idealize.ShloMosaic.TcCoe Idealize.SL.Sem
open Idealize.ShloMosaic.ValueIdx Cert.LogicLayer Cert.KernelIdeal.Blocks Cert.KernelIdeal.Accum
open Idealize.ShloMosaic.Pipeline (Dat)

variable (m : (ℓ : Loc nD τ sig) → Buf (Elt Ideal) ℓ) (ρ : Dev nD → PrngReg)

/-- The specification at this program's argument arrays. -/
abbrev spec (c : Dev nD) : FVec Ideal S4096x16384 .f32 := out (Xa m c) (coefK (Wa m c)) (Ia m c)

/-- The output window's block at point t = 64·i + 8·j + k is block (i, j). Decided over the 512 points. -/
private theorem out_block_index : ∀ t : Fin cfg0.N,
    win0_4.index t (0 : Fin 2) = t.val / 64 ∧ win0_4.index t (1 : Fin 2) = t.val / 8 % 8 :=
  (by decide +kernel : ∀ t : Fin grid0.N, _)

/-- The last K-step, in one equation: the output block is the combination of the two accumulators AS THIS STEP
    LEAVES THEM with the coefficient rows. -/
private theorem last_block (c : Dev nD) (i : grid0.Coords)
    (arg3 : Memref sig .tc .vmem S512x512 .f32) (harg3 : arg3.IsWhole)
    (arg4 : Memref sig .tc .vmem S1x2048 .i32) (harg4 : arg4.IsWhole)
    (arg5 : Memref sig .tc .vmem S1x2048 .i32) (harg5 : arg5.IsWhole)
    (arg6 : Memref sig .tc .vmem S4x2048 .f32) (harg6 : arg6.IsWhole)
    (arg7 : Memref sig .tc .vmem S512x2048 .f32) (harg7 : arg7.IsWhole)
    (arg8 : Memref sig .tc .vmem S512x2048 .f32) (harg8 : arg8.IsWhole)
    (arg9 : Memref sig .tc .vmem S512x2048 .f32) (harg9 : arg9.IsWhole)
    (hc0 : ¬cond0_0 i) (hc1 : cond0_1 i)
    (x0 : Vec Ideal S512x512 .f32) (x1 x2 : Vec Ideal S1x2048 .i32) (x3 : Vec Ideal S4x2048 .f32)
    (xs0 xs1 : Vec Ideal S512x2048 .f32) :
    out0_C_4 (F := Ideal) c i arg3 harg3 arg4 harg4 arg5 harg5 arg6 harg6 arg7 harg7 arg8 harg8 arg9 harg9 hc0 hc1 x0 x1 x2 x3 xs0 xs1
      = k0_pay2 (F := Ideal)
          (sout0_C_0 (F := Ideal) c i arg3 harg3 arg4 harg4 arg5 harg5 arg6 harg6 arg7 harg7 arg8 harg8 arg9 harg9 hc0 hc1 x0 x1 x2 x3 xs0 xs1)
          (sout0_C_1 (F := Ideal) c i arg3 harg3 arg4 harg4 arg5 harg5 arg6 harg6 arg7 harg7 arg8 harg8 arg9 harg9 hc0 hc1 x0 x1 x2 x3 xs0 xs1)
          x3 := by
  rw [Pieces.last_out, Pieces.last_acc0, Pieces.last_acc1]

/-- After a point with K-step 7 the output block is the combination of the two accumulators after that point with
    the point's coefficient block. -/
private theorem block_after (c : Dev nD) (t : Fin cfg0.N) (h0 : ¬t.val % 8 = 0) (h7 : t.val % 8 = 7) :
    (outsAt0 m c t.val t.isLt).1
      = k0_pay2 (F := Ideal) (outsAt0 m c t.val t.isLt).2.1 (outsAt0 m c t.val t.isLt).2.2 (cblk m c t) := by
  rw [outsAt0_C m c t h0 h7]
  dsimp only
  exact last_block c (grid0.coords t) (ms0_0 t) (hs0_0 t) (ms0_1 t) (hs0_1 t) (ms0_2 t) (hs0_2 t) (ms0_3 t) (hs0_3 t)
    (ms0_4 t) (hs0_4 t) scM0_0 (Memref.isWhole_whole _) scM0_1 (Memref.isWhole_whole _)
    (fun h => h0 ((hcond0_0 t).mp h)) ((hcond0_1 t).mpr h7)
    (iblk m c 0 t) (iblk m c 1 t) (iblk m c 2 t) (iblk m c 3 t)
    (outsAt0 m c (t.val - 1) (Nat.lt_of_le_of_lt (Nat.sub_le _ _) t.isLt)).2.1
    (outsAt0 m c (t.val - 1) (Nat.lt_of_le_of_lt (Nat.sub_le _ _) t.isLt)).2.2

/-- Every index word of the table is in range, so the words a point reads are. -/
private theorem word_inRange (c : Dev nD) (hI : ∀ i, InRange (Ia m c i)) (n : ℕ) (hn : n < 512) (s : Fin 2)
    (q : Fin 2048) : InRange (wordOf m c n hn s q) := hI _

/-- Entry (p, q) of the block a point with K-step 7 leaves: the specification at row 512·i + p, channel 2048·j + q.
    Both accumulators hold all eight tiles' contributions, which add up to the gathered entries. -/
private theorem block_entry (c : Dev nD) (hI : ∀ i, InRange (Ia m c i)) (t : Fin cfg0.N) (ht : t.val < 512)
    (h7 : t.val % 8 = 7) (p : Fin 512) (q : Fin 2048) :
    ((outsAt0 m c t.val t.isLt).1 (ix2 p q) : EReal)
      = spec m c (ix2 (⟨512 * (t.val / 64) + p.val, by have := p.isLt; omega⟩ : Fin 4096)
                      (⟨2048 * (t.val / 8 % 8) + q.val, by have := q.isLt; omega⟩ : Fin 16384)) := by
  have h0 : ¬t.val % 8 = 0 := by omega
  have h8 : t.val % 8 + 1 = 8 := by omega
  refine (congrFun (block_after m c t h0 h7) (ix2 p q)).trans ?_
  refine (Payload.pay2_apply (outsAt0 m c t.val t.isLt).2.1 (outsAt0 m c t.val t.isLt).2.2 (cblk m c t) p q).trans ?_
  rw [acc0_after m c t ht p q, acc1_after m c t ht p q, cblk_apply m c t ht 0 q, cblk_apply m c t ht 1 q,
    cblk_apply m c t ht 2 q, cblk_apply m c t ht 3 q, h8,
    tileSum_total _ _ (word_inRange m c hI t.val ht 0 q), tileSum_total _ _ (word_inRange m c hI t.val ht 1 q)]
  rfl

/-- What a point with K-step 7 writes back is the specification read through the point's output block. -/
theorem flushed_eq (c : Dev nD) (hI : ∀ i, InRange (Ia m c i)) (t : Fin cfg0.N) (h7 : t.val % 8 = 7) :
    (dats m 0 c).flushed 4 t = ((cfg0.win 4).blk t).view.read (Elt Ideal) (spec m c) := by
  have ht : t.val < 512 := lt_of_lt_of_eq t.isLt npoints
  obtain ⟨e0, e1⟩ := out_block_index t
  have key : ((outsAt0 m c t.val t.isLt).1 : Vec Ideal S512x2048 .f32)
      = ((cfg0.win 4).blk t).view.read (Elt Ideal) (spec m c) := by
    funext y
    obtain ⟨p, q, rfl⟩ : ∃ (p : Fin 512) (q : Fin 2048), y = ix2 p q := ⟨y 0, y 1, eq_ix2 y⟩
    rw [View.read_apply]
    refine (block_entry m c hI t ht h7 p q).trans ?_
    refine congrArg (spec m c) ?_
    funext a
    apply Fin.ext
    match a with
    | ⟨0, _⟩ => show 512 * (t.val / 64) + p.val = win0_4.index t (0 : Fin 2) * 512 + 1 * p.val; omega
    | ⟨1, _⟩ => show 2048 * (t.val / 8 % 8) + q.val = win0_4.index t (1 : Fin 2) * 2048 + 1 * q.val; omega
  rw [Value.flushed4 m c t]
  exact key

/-- An entry of the result lies in point t's output block iff each coordinate lies in the block's range. -/
private theorem mem_out_block (t : Fin cfg0.N) (i : S4096x16384.Idx) :
    i ∈ ((cfg0.win 4).blk t).view.set ↔ ∀ a : Fin 2, win0_4.index t a * S512x2048.size a ≤ (i a).val
      ∧ (i a).val < win0_4.index t a * S512x2048.size a + S512x2048.size a := by
  show i ∈ ((View.whole main_v19).slice (win0_4.rect t)).set ↔ _
  rw [View.set_slice_whole, Rect.mem_set_unit]
  exact Iff.rfl

/-- Entry (M, N) of the result lies in the block of the point 64·(M / 512) + 8·(N / 2048) + 7, which writes back. -/
private theorem covered (i : S4096x16384.Idx) :
    ∃ t : Fin cfg0.N, (cfg0.win 4).flush t = true ∧ i ∈ ((cfg0.win 4).blk t).view.set := by
  have hM : (i 0).val < 4096 := (i 0).isLt
  have hN : (i 1).val < 16384 := (i 1).isLt
  obtain ⟨t, htv⟩ : ∃ t : Fin cfg0.N, t.val = 64 * ((i 0).val / 512) + 8 * ((i 1).val / 2048) + 7 :=
    ⟨⟨64 * ((i 0).val / 512) + 8 * ((i 1).val / 2048) + 7, by rw [npoints]; omega⟩, rfl⟩
  obtain ⟨e0, e1⟩ := out_block_index t
  refine ⟨t, (flush0_4 t).mpr (by omega), ?_⟩
  rw [mem_out_block]
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 2048 ≤ (i 1).val ∧ (i 1).val < win0_4.index t (1 : Fin 2) * 2048 + 2048
    omega

/-- After the last point the result array is the specification. -/
theorem final (c : Dev nD) (hI : ∀ i, InRange (Ia m c i)) :
    (dats m 0 c).arrAt 4 cfg0.N = spec m c :=
  (dats m 0 c).arrAt_eq_of_cover 4 (spec m c) (fun t hf => flushed_eq m c hI t ((flush0_4 t).mp hf)) covered

/-- The kernel's run with its result named: every weakly fair execution terminates with the result array at the
    specification and the arguments unchanged. -/
theorem run (hI : ∀ (c : Dev nD) i, InRange (Ia m c i)) :
    θ_run defs (onTc (τ := τ) (main (F := Ideal))) ⟨m, fun _ => 0, ρ⟩ fun r => ∀ c : Dev nD,
      r.2.mem ((c : Thread nD τ).loc main_v19) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c (hI c)), (h c).2⟩)
    (Cert.KernelIdeal.Value.run_blocks m ρ)

end Cert.KernelIdeal.Final

end
-- ==== Proof.RefRun.lean ====
/-
  The reference's run. Its @main is a straight line of 62 host operations, each writing one fresh buffer as a pure
  function of buffers written before it; every weakly fair execution runs them in order and terminates, the result
  buffer holding the operations' composed term of the three arguments and the arguments unchanged.
-/
import proofs.«407184_j27075473834525_2_alg».proof.Proof.Gen.ReferenceIdeal
import proofs.«407184_j27075473834525_2_alg».proof.Proof.RefTerm
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

section Operations

variable {F : FTy → Type} [FloatOps F]

set_option maxHeartbeats 4000000 in
set_option maxRecDepth 8192 in
/-- The first sixty operations of the program, in order. -/
private abbrev ops_part0 : List (HloOp τ sig (Elt F)) :=
  [ nullary main_cst (fun i => FloatOps.ofBits .f32 (lit0 (S16x4.rowMajor i))),
    nullary main_cst_0 (constant S_ .f32 0xFF800000#32),
    binary main_arg1 main_cst_0 main_v0 ((fun x v => Host.reduce FloatOps.maximumf x v reducesTo_S16384x16_S16384_d1 h_S_) : (⟨S16384x16, .f32⟩ : BufTy).Contents (Elt F) → (⟨S_, .f32⟩ : BufTy).Contents (Elt F) → (⟨S16384, .f32⟩ : BufTy).Contents (Elt F)),
    nullary main_cst_1 (constant S_ .f32 0xFF800000#32),
    unary main_cst_1 main_v1 (broadcastInDim S16384 ![] bcast_S_S16384 : (⟨S_, .f32⟩ : BufTy).Contents (Elt F) → (⟨S16384, .f32⟩ : BufTy).Contents (Elt F)),
    binary main_v1 main_v0 main_v2 (maximumf : (⟨S16384, .f32⟩ : BufTy).Contents (Elt F) → (⟨S16384, .f32⟩ : BufTy).Contents (Elt F) → (⟨S16384, .f32⟩ : BufTy).Contents (Elt F)),
    unary main_v2 main_v3 (broadcastInDim S16384x1 ![0] bcast_S16384_S16384x1_0 : (⟨S16384, .f32⟩ : BufTy).Contents (Elt F) → (⟨S16384x1, .f32⟩ : BufTy).Contents (Elt F)),
    unary main_v3 main_v4 (broadcastInDim S16384x16 ![0, 1] bcast_S16384x1_S16384x16_0_1 : (⟨S16384x1, .f32⟩ : BufTy).Contents (Elt F) → (⟨S16384x16, .f32⟩ : BufTy).Contents (Elt F)),
    binary main_arg1 main_v4 main_v5 (subf : (⟨S16384x16, .f32⟩ : BufTy).Contents (Elt F) → (⟨S16384x16, .f32⟩ : BufTy).Contents (Elt F) → (⟨S16384x16, .f32⟩ : BufTy).Contents (Elt F)),
    unary main_v5 main_v6 (Host.exp : (⟨S16384x16, .f32⟩ : BufTy).Contents (Elt F) → (⟨S16384x16, .f32⟩ : BufTy).Contents (Elt F)),
    nullary main_cst_2 (constant S_ .f32 0x00000000#32),
    binary main_v6 main_cst_2 main_v7 ((fun x v => Host.reduceAdd x v reducesTo_S16384x16_S16384_d1 h_S_) : (⟨S16384x16, .f32⟩ : BufTy).Contents (Elt F) → (⟨S_, .f32⟩ : BufTy).Contents (Elt F) → (⟨S16384, .f32⟩ : BufTy).Contents (Elt F)),
    unary main_v7 main_v8 (broadcastInDim S16384x1 ![0] bcast_S16384_S16384x1_0 : (⟨S16384, .f32⟩ : BufTy).Contents (Elt F) → (⟨S16384x1, .f32⟩ : BufTy).Contents (Elt F)),
    unary main_v8 main_v9 (broadcastInDim S16384x16 ![0, 1] bcast_S16384x1_S16384x16_0_1 : (⟨S16384x1, .f32⟩ : BufTy).Contents (Elt F) → (⟨S16384x16, .f32⟩ : BufTy).Contents (Elt F)),
    binary main_v6 main_v9 main_v10 (Host.divf : (⟨S16384x16, .f32⟩ : BufTy).Contents (Elt F) → (⟨S16384x16, .f32⟩ : BufTy).Contents (Elt F) → (⟨S16384x16, .f32⟩ : BufTy).Contents (Elt F)),
    binary main_v10 main_cst main_v11 ((fun l r => Host.dotGeneral dot_S16384x16_S16x4_S16384x4_1_0_0_1_n_n none l r) : (⟨S16384x16, .f32⟩ : BufTy).Contents (Elt F) → (⟨S16x4, .f32⟩ : BufTy).Contents (Elt F) → (⟨S16384x4, .f32⟩ : BufTy).Contents (Elt F)),
    unary main_arg2 main_v12 ((extractStridedSlice S16384x1 ![0, 0] · slices_S16384x2_S16384x1_0_0) : (⟨S16384x2, .i32⟩ : BufTy).Contents (Elt F) → (⟨S16384x1, .i32⟩ : BufTy).Contents (Elt F)),
    reshape main_v12 main_v13 rfl shapeCasts_S16384x1_S16384,
    nullary main_c (constantI S_ 32 0#32),
    unary main_c main_v14 (broadcastInDim S16384 ![] bcast_S_S16384 : (⟨S_, .i32⟩ : BufTy).Contents (Elt F) → (⟨S16384, .i32⟩ : BufTy).Contents (Elt F)),
    binary main_v13 main_v14 main_v15 (cmpi .slt : (⟨S16384, .i32⟩ : BufTy).Contents (Elt F) → (⟨S16384, .i32⟩ : BufTy).Contents (Elt F) → (⟨S16384, .i1⟩ : BufTy).Contents (Elt F)),
    nullary main_c_3 (constantI S_ 32 4096#32),
    unary main_c_3 main_v16 (broadcastInDim S16384 ![] bcast_S_S16384 : (⟨S_, .i32⟩ : BufTy).Contents (Elt F) → (⟨S16384, .i32⟩ : BufTy).Contents (Elt F)),
    binary main_v13 main_v16 main_v17 (addi : (⟨S16384, .i32⟩ : BufTy).Contents (Elt F) → (⟨S16384, .i32⟩ : BufTy).Contents (Elt F) → (⟨S16384, .i32⟩ : BufTy).Contents (Elt F)),
    ternary main_v15 main_v17 main_v13 main_v18 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v18 main_v19 (broadcastInDim S16384x1 ![0] bcast_S16384_S16384x1_0 : (⟨S16384, .i32⟩ : BufTy).Contents (Elt F) → (⟨S16384x1, .i32⟩ : BufTy).Contents (Elt F)),
    binary main_arg0 main_v19 main_v20 ((fun x i => Host.gather gather_S4096x4096_S16384x1_S4096x16384_0_1_n_n_1_1_40961 x i) : (⟨S4096x4096, .f32⟩ : BufTy).Contents (Elt F) → (⟨S16384x1, .i32⟩ : BufTy).Contents (Elt F) → (⟨S4096x16384, .f32⟩ : BufTy).Contents (Elt F)),
    unary main_arg2 main_v21 ((extractStridedSlice S16384x1 ![0, 1] · slices_S16384x2_S16384x1_0_1) : (⟨S16384x2, .i32⟩ : BufTy).Contents (Elt F) → (⟨S16384x1, .i32⟩ : BufTy).Contents (Elt F)),
    reshape main_v21 main_v22 rfl shapeCasts_S16384x1_S16384,
    nullary main_c_4 (constantI S_ 32 0#32),
    unary main_c_4 main_v23 (broadcastInDim S16384 ![] bcast_S_S16384 : (⟨S_, .i32⟩ : BufTy).Contents (Elt F) → (⟨S16384, .i32⟩ : BufTy).Contents (Elt F)),
    binary main_v22 main_v23 main_v24 (cmpi .slt : (⟨S16384, .i32⟩ : BufTy).Contents (Elt F) → (⟨S16384, .i32⟩ : BufTy).Contents (Elt F) → (⟨S16384, .i1⟩ : BufTy).Contents (Elt F)),
    nullary main_c_5 (constantI S_ 32 4096#32),
    unary main_c_5 main_v25 (broadcastInDim S16384 ![] bcast_S_S16384 : (⟨S_, .i32⟩ : BufTy).Contents (Elt F) → (⟨S16384, .i32⟩ : BufTy).Contents (Elt F)),
    binary main_v22 main_v25 main_v26 (addi : (⟨S16384, .i32⟩ : BufTy).Contents (Elt F) → (⟨S16384, .i32⟩ : BufTy).Contents (Elt F) → (⟨S16384, .i32⟩ : BufTy).Contents (Elt F)),
    ternary main_v24 main_v26 main_v22 main_v27 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v27 main_v28 (broadcastInDim S16384x1 ![0] bcast_S16384_S16384x1_0 : (⟨S16384, .i32⟩ : BufTy).Contents (Elt F) → (⟨S16384x1, .i32⟩ : BufTy).Contents (Elt F)),
    binary main_arg0 main_v28 main_v29 ((fun x i => Host.gather gather_S4096x4096_S16384x1_S4096x16384_0_1_n_n_1_1_40961 x i) : (⟨S4096x4096, .f32⟩ : BufTy).Contents (Elt F) → (⟨S16384x1, .i32⟩ : BufTy).Contents (Elt F) → (⟨S4096x16384, .f32⟩ : BufTy).Contents (Elt F)),
    unary main_v11 main_v30 ((extractStridedSlice S16384x1 ![0, 0] · slices_S16384x4_S16384x1_0_0) : (⟨S16384x4, .f32⟩ : BufTy).Contents (Elt F) → (⟨S16384x1, .f32⟩ : BufTy).Contents (Elt F)),
    reshape main_v30 main_v31 rfl shapeCasts_S16384x1_S16384,
    unary main_v11 main_v32 ((extractStridedSlice S16384x1 ![0, 1] · slices_S16384x4_S16384x1_0_1) : (⟨S16384x4, .f32⟩ : BufTy).Contents (Elt F) → (⟨S16384x1, .f32⟩ : BufTy).Contents (Elt F)),
    reshape main_v32 main_v33 rfl shapeCasts_S16384x1_S16384,
    unary main_v33 main_v34 (broadcastInDim S1x16384 ![1] bcast_S16384_S1x16384_1 : (⟨S16384, .f32⟩ : BufTy).Contents (Elt F) → (⟨S1x16384, .f32⟩ : BufTy).Contents (Elt F)),
    unary main_v34 main_v35 (broadcastInDim S4096x16384 ![0, 1] bcast_S1x16384_S4096x16384_0_1 : (⟨S1x16384, .f32⟩ : BufTy).Contents (Elt F) → (⟨S4096x16384, .f32⟩ : BufTy).Contents (Elt F)),
    binary main_v35 main_v20 main_v36 (mulf : (⟨S4096x16384, .f32⟩ : BufTy).Contents (Elt F) → (⟨S4096x16384, .f32⟩ : BufTy).Contents (Elt F) → (⟨S4096x16384, .f32⟩ : BufTy).Contents (Elt F)),
    unary main_v31 main_v37 (broadcastInDim S1x16384 ![1] bcast_S16384_S1x16384_1 : (⟨S16384, .f32⟩ : BufTy).Contents (Elt F) → (⟨S1x16384, .f32⟩ : BufTy).Contents (Elt F)),
    unary main_v37 main_v38 (broadcastInDim S4096x16384 ![0, 1] bcast_S1x16384_S4096x16384_0_1 : (⟨S1x16384, .f32⟩ : BufTy).Contents (Elt F) → (⟨S4096x16384, .f32⟩ : BufTy).Contents (Elt F)),
    binary main_v38 main_v36 main_v39 (addf : (⟨S4096x16384, .f32⟩ : BufTy).Contents (Elt F) → (⟨S4096x16384, .f32⟩ : BufTy).Contents (Elt F) → (⟨S4096x16384, .f32⟩ : BufTy).Contents (Elt F)),
    unary main_v11 main_v40 ((extractStridedSlice S16384x1 ![0, 2] · slices_S16384x4_S16384x1_0_2) : (⟨S16384x4, .f32⟩ : BufTy).Contents (Elt F) → (⟨S16384x1, .f32⟩ : BufTy).Contents (Elt F)),
    reshape main_v40 main_v41 rfl shapeCasts_S16384x1_S16384,
    unary main_v41 main_v42 (broadcastInDim S1x16384 ![1] bcast_S16384_S1x16384_1 : (⟨S16384, .f32⟩ : BufTy).Contents (Elt F) → (⟨S1x16384, .f32⟩ : BufTy).Contents (Elt F)),
    unary main_v42 main_v43 (broadcastInDim S4096x16384 ![0, 1] bcast_S1x16384_S4096x16384_0_1 : (⟨S1x16384, .f32⟩ : BufTy).Contents (Elt F) → (⟨S4096x16384, .f32⟩ : BufTy).Contents (Elt F)),
    binary main_v43 main_v29 main_v44 (mulf : (⟨S4096x16384, .f32⟩ : BufTy).Contents (Elt F) → (⟨S4096x16384, .f32⟩ : BufTy).Contents (Elt F) → (⟨S4096x16384, .f32⟩ : BufTy).Contents (Elt F)),
    binary main_v39 main_v44 main_v45 (addf : (⟨S4096x16384, .f32⟩ : BufTy).Contents (Elt F) → (⟨S4096x16384, .f32⟩ : BufTy).Contents (Elt F) → (⟨S4096x16384, .f32⟩ : BufTy).Contents (Elt F)),
    unary main_v11 main_v46 ((extractStridedSlice S16384x1 ![0, 3] · slices_S16384x4_S16384x1_0_3) : (⟨S16384x4, .f32⟩ : BufTy).Contents (Elt F) → (⟨S16384x1, .f32⟩ : BufTy).Contents (Elt F)),
    reshape main_v46 main_v47 rfl shapeCasts_S16384x1_S16384,
    binary main_v20 main_v29 main_v48 (mulf : (⟨S4096x16384, .f32⟩ : BufTy).Contents (Elt F) → (⟨S4096x16384, .f32⟩ : BufTy).Contents (Elt F) → (⟨S4096x16384, .f32⟩ : BufTy).Contents (Elt F)),
    unary main_v47 main_v49 (broadcastInDim S1x16384 ![1] bcast_S16384_S1x16384_1 : (⟨S16384, .f32⟩ : BufTy).Contents (Elt F) → (⟨S1x16384, .f32⟩ : BufTy).Contents (Elt F)),
    unary main_v49 main_v50 (broadcastInDim S4096x16384 ![0, 1] bcast_S1x16384_S4096x16384_0_1 : (⟨S1x16384, .f32⟩ : BufTy).Contents (Elt F) → (⟨S4096x16384, .f32⟩ : BufTy).Contents (Elt F)),
    binary main_v50 main_v48 main_v51 (mulf : (⟨S4096x16384, .f32⟩ : BufTy).Contents (Elt F) → (⟨S4096x16384, .f32⟩ : BufTy).Contents (Elt F) → (⟨S4096x16384, .f32⟩ : BufTy).Contents (Elt F)) ]

/-- The last operation of the program: the final sum. -/
private abbrev ops_part1 : List (HloOp τ sig (Elt F)) :=
  [ binary main_v45 main_v51 main_v52 (addf : (⟨S4096x16384, .f32⟩ : BufTy).Contents (Elt F) → (⟨S4096x16384, .f32⟩ : BufTy).Contents (Elt F) → (⟨S4096x16384, .f32⟩ : BufTy).Contents (Elt F)) ]

/-- The program's operations, in order. -/
private abbrev ops : List (HloOp τ sig (Elt F)) := ops_part0 ++ ops_part1

set_option maxRecDepth 8192 in
private theorem main_part0_eq (c : Dev nD) : main_part0 (F := F) c = seq ops_part0 := rfl
private theorem main_part1_eq (c : Dev nD) : main_part1 (F := F) c = seq ops_part1 := rfl
set_option maxRecDepth 8192 in
private theorem main_eq (c : Dev nD) : main (F := F) c = seq ops := by
  simp only [ops, seq_append, ← main_part0_eq c, ← main_part1_eq c]
  rfl
private theorem scopedRefs_eq : (Finset.univ.filter fun b : Ref sig .tc => b.isScoped) = ∅ := by decide
private theorem scopedSems_eq : (Finset.univ.filter fun sm : SemLoc sig => sm.isScoped .tc) = ∅ := by decide
set_option maxRecDepth 8192 in
private theorem ops_part0_sub : (ops_part0 : List (HloOp τ sig (Elt F))).Forall fun op => op.bufs ⊆ tcRefs τ sig :=
  ⟨nullary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., reshape_bufs_sub .., unary_bufs_sub .., unary_bufs_sub .., binary_bufs_sub .., unary_bufs_sub .., unary_bufs_sub .., binary_bufs_sub .., unary_bufs_sub .., reshape_bufs_sub .., unary_bufs_sub .., unary_bufs_sub .., binary_bufs_sub .., binary_bufs_sub .., unary_bufs_sub .., reshape_bufs_sub .., binary_bufs_sub .., unary_bufs_sub .., unary_bufs_sub .., binary_bufs_sub ..⟩
private theorem ops_part1_sub : (ops_part1 : List (HloOp τ sig (Elt F))).Forall fun op => op.bufs ⊆ tcRefs τ sig :=
  binary_bufs_sub ..
private theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops_part0_sub op h, List.forall_iff_forall_mem.mp ops_part1_sub op h]

/-- The contents after two lines run one after the other are the second's after the first's. -/
private theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

end Operations

/-- Every weakly fair execution of the reference terminates with its result at `refTerm` of the arguments and the
    arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v52)
        = refTerm (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v52).trans (by
        simp only [ops, after_app, ops_part0, ops_part1]
        after_results_simp
        rfl),
      (h c main_arg0).trans (by
        simp only [ops, after_app, ops_part0, ops_part1]
        after_results_simp),
      (h c main_arg1).trans (by
        simp only [ops, after_app, ops_part0, ops_part1]
        after_results_simp),
      (h c main_arg2).trans (by
        simp only [ops, after_app, ops_part0, ops_part1]
        after_results_simp)⟩)
    (run_seq scopedRefs_eq scopedSems_eq defs main (fun _ => ops) main_eq (fun _ => ops_sub) m ρ)

end Cert.ReferenceIdeal.RefValue

end
-- ==== Proof.RefValue.lean ====
/-
  The reference's result, entry by entry. With every index word in range no word is negative, so none is moved, and
  the gather's clamp to 0 … 4095 changes nothing: entry (m, n) of a gather is row m of the input at the column
  the word names. A broadcast coefficient row reads its channel's coefficient. So the reference's term is the
  specification in the expanded arrangement, at this program's coefficient chain.
-/
import proofs.«407184_j27075473834525_2_alg».proof.Proof.RefTerm
import Idealize.ShloMosaic.Lib.ValueIdx
import Idealize.ShloMosaic.Lib.ValueLayout
import Idealize.ShloMosaic.Lib.Pipeline.Value

noncomputable section

namespace Cert.ReferenceIdeal.RefValue

open Cert.ReferenceIdeal Cert.ReferenceIdeal.Gen Idealize.ShloMosaic Idealize.ShloMosaic.ValueIdx Cert.LogicLayer

/-! ## A column of a 16384-row table, cut out and flattened -/

/-- Column o of a table with 16384 rows, cut out as a [16384, 1] block and flattened to a vector, reads at n the
    table's entry (n, o): the flat position of (n, 0) in a one-column block is n itself. -/
private theorem column_apply {α : Type} {c : Nat} (o : Nat) (ho : o < c) (C : (⟨2, ![16384, c]⟩ : Shape).Idx → α)
    (hs : (⟨2, ![16384, c]⟩ : Shape).Slices ![0, o] S16384x1) (n : Fin 16384) :
    shapeCast S16384 (extractStridedSlice S16384x1 ![0, o] C hs) shapeCasts_S16384x1_S16384 (ix1 n)
      = C (ix2 n ⟨o, ho⟩) := by
  refine (shapeCast_apply _ _ (ix1 n) (ix2 n (0 : Fin 1)) ?_).trans ?_
  · rw [Shape.rowMajor_val_two, Shape.rowMajor_val_one]
    show n.val * 1 + 0 = n.val
    omega
  · exact slice2_axis1_apply o C hs n 0 ⟨o, ho⟩ (by simp)

/-- An index column read at channel n is the index table's word (n, o). -/
private theorem idxCol_apply (I : IVec S16384x2 32) (o : Nat) (ho : o < 2) (hs : S16384x2.Slices ![0, o] S16384x1)
    (n : Fin 16384) : idxCol I ![0, o] hs (ix1 n) = I (ix2 n ⟨o, ho⟩) :=
  column_apply o ho I hs n

/-! ## A vector laid along the channels and repeated down the rows -/

/-- A vector over the channels, laid out as one row and repeated down 4096 rows, reads at (m, n) its entry n. -/
private theorem rows_apply {α : Type} (v : S16384.Idx → α) (mm : Fin 4096) (n : Fin 16384) :
    broadcastInDim S4096x16384 ![0, 1] bcast_S1x16384_S4096x16384_0_1
      (broadcastInDim S1x16384 ![1] bcast_S16384_S1x16384_1 v) (ix2 mm n) = v (ix1 n) := by
  refine (broadcastInDim_apply _ _ _ (ix2 mm n) (ix2 (0 : Fin 1) n) (fun a => ?_)).trans ?_
  · match a with
    | ⟨0, _⟩ => rfl
    | ⟨1, _⟩ => rfl
  · refine broadcastInDim_apply _ _ _ (ix2 (0 : Fin 1) n) (ix1 n) (fun a => ?_)
    match a with
    | ⟨0, _⟩ => rfl

/-- A broadcast coefficient row reads its channel's coefficient. -/
private theorem coefRow_apply (C : FVec Ideal S16384x4 .f32) (o : Nat) (ho : o < 4)
    (hs : S16384x4.Slices ![0, o] S16384x1) (mm : Fin 4096) (n : Fin 16384) :
    coefRow C ![0, o] hs (ix2 mm n) = C (ix2 n ⟨o, ho⟩) := by
  unfold coefRow
  rw [rows_apply]
  exact column_apply o ho C hs n

/-! ## The gather read at an entry -/

/-- Entry (m, n) of the gather of the input's columns at a column of start words is the input at row m and at the
    column the start word of channel n names, read signed and clamped into 0 … 4095. Axis 0 of the input is the
    offset axis: a whole column of 4096 rows is taken, so its start is 0 and its coordinate is the result's m. Axis 1
    is collapsed: its coordinate is the clamped start word alone. -/
private theorem gather_apply {α : Type} (X : S4096x4096.Idx → α) (idx : IVec S16384x1 32) (mm : Fin 4096)
    (n : Fin 16384) :
    Host.gather gather_S4096x4096_S16384x1_S4096x16384_0_1_n_n_1_1_40961 X idx (ix2 mm n)
      = X (ix2 mm ⟨min (idx (ix2 n (0 : Fin 1))).toInt.toNat 4095, by omega⟩) := by
  unfold Host.gather
  congr 1
  funext a
  refine Fin.ext ?_
  match a with
  | ⟨0, _⟩ =>
    show gather_S4096x4096_S16384x1_S4096x16384_0_1_n_n_1_1_40961.start (ix2 mm n) idx 0
        + gather_S4096x4096_S16384x1_S4096x16384_0_1_n_n_1_1_40961.batchCoord (ix2 mm n) 0
        + gather_S4096x4096_S16384x1_S4096x16384_0_1_n_n_1_1_40961.offCoord (ix2 mm n) 0 = mm.val
    rw [GatherDims.batchCoord_eq_zero _ _ _ List.not_mem_nil]
    unfold GatherDims.start
    rw [dif_neg (show (0 : Fin 2) ∉ gather_S4096x4096_S16384x1_S4096x16384_0_1_n_n_1_1_40961.startIndexMap by decide)]
    unfold GatherDims.offCoord
    rw [dif_pos (show (0 : Fin 2) ∈ gather_S4096x4096_S16384x1_S4096x16384_0_1_n_n_1_1_40961.sKept by decide),
      Nat.zero_add]
    rfl
  | ⟨1, _⟩ =>
    show gather_S4096x4096_S16384x1_S4096x16384_0_1_n_n_1_1_40961.start (ix2 mm n) idx 1
        + gather_S4096x4096_S16384x1_S4096x16384_0_1_n_n_1_1_40961.batchCoord (ix2 mm n) 1
        + gather_S4096x4096_S16384x1_S4096x16384_0_1_n_n_1_1_40961.offCoord (ix2 mm n) 1
      = min (idx (ix2 n (0 : Fin 1))).toInt.toNat 4095
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S4096x4096_S16384x1_S4096x16384_0_1_n_n_1_1_40961.startIndexMap from
      List.mem_singleton.mpr rfl)]
    have hsi : gather_S4096x4096_S16384x1_S4096x16384_0_1_n_n_1_1_40961.siIdx (ix2 mm n)
        ⟨List.idxOf (1 : Fin 2) gather_S4096x4096_S16384x1_S4096x16384_0_1_n_n_1_1_40961.startIndexMap,
          List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl

/-! ## Words in range -/

/-- A word in range is not negative: the signed comparison with zero is the bit 0. -/
private theorem cmpi_slt_zero {w : BitVec 32} (h : InRange w) : IntOp.cmpi .slt w 0#32 = 0#1 := by
  have hf : w.slt 0#32 = false := by
    rw [BitVec.slt, decide_eq_false_iff_not, BitVec.toInt_zero]
    exact not_lt.mpr h.1
  unfold IntOp.cmpi
  show BitVec.ofBool (w.slt 0#32) = 0#1
  rw [hf]
  rfl

/-- A word in range, read signed and clamped into 0 … 4095, is its own natural value. -/
private theorem clamp_inRange {w : BitVec 32} (h : InRange w) : min w.toInt.toNat 4095 = w.toNat := by
  have hlt := h.toNat_lt
  have := BitVec.toInt_eq_toNat_cond w
  split at this <;> omega

/-- The moved column of start words at channel n: the word moved up by 4096 if negative, else the word itself. -/
private theorem wrapped_apply (v : IVec S16384 32) (n : Fin 16384) :
    wrapped v (ix2 n (0 : Fin 1))
      = Scalar.select (IntOp.cmpi .slt (v (ix1 n)) 0#32) (IntOp.addi (v (ix1 n)) 4096#32) (v (ix1 n)) := by
  unfold wrapped
  refine (broadcastInDim_apply _ _ _ (ix2 n (0 : Fin 1)) (ix1 n) (fun a => ?_)).trans ?_
  · match a with
    | ⟨0, _⟩ => rfl
  · rfl

/-- A word in range is not moved. -/
private theorem wrapped_inRange (v : IVec S16384 32) (n : Fin 16384) (h : InRange (v (ix1 n))) :
    wrapped v (ix2 n (0 : Fin 1)) = v (ix1 n) := by
  rw [wrapped_apply, cmpi_slt_zero h, select_zero]

/-- With the index words in range, a gathered entry is the specification's operand. -/
private theorem gathered_apply (X : FVec Ideal S4096x4096 .f32) (I : IVec S16384x2 32) (hI : ∀ i, InRange (I i))
    (o : Nat) (ho : o < 2) (hs : S16384x2.Slices ![0, o] S16384x1) (mm : Fin 4096) (n : Fin 16384) :
    gathered X (idxCol I ![0, o] hs) (ix2 mm n) = pick X I ⟨o, ho⟩ mm n := by
  have hv : idxCol I ![0, o] hs (ix1 n) = I (ix2 n ⟨o, ho⟩) := idxCol_apply I o ho hs n
  have hr : InRange (idxCol I ![0, o] hs (ix1 n)) := by rw [hv]; exact hI _
  unfold gathered pick
  rw [gather_apply]
  congr 1
  funext a
  match a with
  | ⟨0, _⟩ => rfl
  | ⟨1, _⟩ =>
    refine Fin.ext ?_
    show min (wrapped (idxCol I ![0, o] hs) (ix2 n (0 : Fin 1))).toInt.toNat 4095 = (col (I (ix2 n ⟨o, ho⟩))).val
    rw [wrapped_inRange _ n hr, clamp_inRange hr, hv, col_val (hI _)]

/-- With every index word in range the reference's term is the specification, expanded. -/
theorem refTerm_eq (X : FVec Ideal S4096x4096 .f32) (W : FVec Ideal S16384x16 .f32) (I : IVec S16384x2 32)
    (hI : ∀ i, InRange (I i)) :
    refTerm X W I = outExpanded X (coefR W) I := by
  funext y
  obtain ⟨mm, n, rfl⟩ : ∃ (mm : Fin 4096) (n : Fin 16384), y = ix2 mm n := ⟨y 0, y 1, eq_ix2 y⟩
  unfold refTerm
  generalize coefR W = C
  have h0 : coefRow C ![0, 0] slices_S16384x4_S16384x1_0_0 (ix2 mm n) = C (ix2 n (0 : Fin 4)) :=
    coefRow_apply C 0 (by norm_num) _ mm n
  have h1 : coefRow C ![0, 1] slices_S16384x4_S16384x1_0_1 (ix2 mm n) = C (ix2 n (1 : Fin 4)) :=
    coefRow_apply C 1 (by norm_num) _ mm n
  have h2 : coefRow C ![0, 2] slices_S16384x4_S16384x1_0_2 (ix2 mm n) = C (ix2 n (2 : Fin 4)) :=
    coefRow_apply C 2 (by norm_num) _ mm n
  have h3 : coefRow C ![0, 3] slices_S16384x4_S16384x1_0_3 (ix2 mm n) = C (ix2 n (3 : Fin 4)) :=
    coefRow_apply C 3 (by norm_num) _ mm n
  have g0 : gathered X (idxCol I ![0, 0] slices_S16384x2_S16384x1_0_0) (ix2 mm n) = pick X I 0 mm n :=
    gathered_apply X I hI 0 (by norm_num) _ mm n
  have g1 : gathered X (idxCol I ![0, 1] slices_S16384x2_S16384x1_0_1) (ix2 mm n) = pick X I 1 mm n :=
    gathered_apply X I hI 1 (by norm_num) _ mm n
  simp only [addf_apply, mulf_apply]
  rw [h0, h1, h2, h3, g0, g1]
  rfl

end Cert.ReferenceIdeal.RefValue

end
-- ==== Proof.lean ====
/-
  The layer gathers two columns of the input per output channel and combines them with four per-channel
  coefficients, out[m, n] = c₀ + c₁·a + c₂·b + c₃·(a·b) with a = x[m, i₀(n)], b = x[m, i₁(n)] and the coefficients
  the softmax of the channel's weights against the table of the sixteen gates' affine forms.

  The kernel turns each gather into a sum of one-hot products over eight column tiles, accumulated across the
  grid's innermost axis, and evaluates the combination in the arrangement (c₀ + c₂·b) + a·(c₁ + c₃·b); the
  reference gathers directly and evaluates the expanded arrangement. Under the precondition — the two float
  arrays hold real numbers and every index word lies in 0 … 4095 — the one-hot sums are the gathered entries
  (exactly one tile and row match a word in range), the reference's wrap of negative words and clamp do nothing, the
  coefficients are real numbers (a softmax of reals against a table of reals), and on real numbers the two
  arrangements agree by distributivity. Both programs compute the coefficients by the same chain of host
  operations over the same gate table, so that chain is carried as one function and never opened beyond the fact
  that its values are real.

  The three frames: the kernel's two are the frames of its pipeline at the two instances; the reference's is its run
  with the result forgotten. The idealization rewrote no operation, so there is nothing to preserve.
-/
import proofs.«407184_j27075473834525_2_alg».proof.Defs
import proofs.«407184_j27075473834525_2_alg».proof.Proof.Gen.Kernel
import proofs.«407184_j27075473834525_2_alg».proof.Proof.Gen.Kernel.Frame
import proofs.«407184_j27075473834525_2_alg».proof.Proof.Gen.KernelIdeal
import proofs.«407184_j27075473834525_2_alg».proof.Proof.Gen.KernelIdeal.Frame
import proofs.«407184_j27075473834525_2_alg».proof.Proof.Gen.ReferenceIdeal
import proofs.«407184_j27075473834525_2_alg».proof.Proof.Gen.Pre_finite_inputs
import proofs.«407184_j27075473834525_2_alg».proof.Proof.Spec
import proofs.«407184_j27075473834525_2_alg».proof.Proof.PreDecode
import proofs.«407184_j27075473834525_2_alg».proof.Proof.Glue
import proofs.«407184_j27075473834525_2_alg».proof.Proof.KFinal
import proofs.«407184_j27075473834525_2_alg».proof.Proof.RefRun
import proofs.«407184_j27075473834525_2_alg».proof.Proof.RefValue
import Idealize.ShloMosaic.Adequacy
import Idealize.ShloMosaic.Init

noncomputable section

namespace Cert.Proof

open Idealize.ShloMosaic Idealize.ShloMosaic.TcCoe Idealize.SL.Sem Cert.LogicLayer

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.RefValue.run m ρ)

/-- Both programs end with the specification: the kernel in its own arrangement, the reference in the expanded one,
    equal on the real numbers the precondition provides. -/
theorem algebraic : Cert.algebraic_KernelIdeal_ReferenceIdeal := by
  intro m ρ m' ρ' hpre hagree
  have hdec := fun c : Dev Cert.KernelIdeal.nD => pre_decode _ _ _ (hpre c)
  refine ⟨fun c => Cert.KernelIdeal.Final.spec m c,
    Cert.KernelIdeal.Final.run m ρ (fun c => (hdec c).2.2), ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]
  obtain ⟨hX, hW, hI⟩ := hdec c
  rw [Cert.ReferenceIdeal.RefValue.refTerm_eq _ _ _ hI]
  show outExpanded _ _ _ = out _ (Cert.KernelIdeal.Blocks.coefK _) _
  rw [coef_agree]
  exact (out_eq_outExpanded _ _ _ hX (coefR_real _ hW)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
